-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) (main_arg1 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  let main_v4 : FVec F S32x3x512x512 .f32 := Host.absf main_arg1
  let main_cst_0 : FVec F S_ .f32 := constant S_ .f32 0x7F800000#32
  let main_v5 : FVec F S32x3x512x512 .f32 := broadcastInDim S32x3x512x512 ![] bcast_S_S32x3x512x512 main_cst_0
  let main_v6 : IVec S32x3x512x512 1 := cmpf .olt main_v4 main_v5
  let main_c_1 : IVec S_ 1 := constantI S_ 1 1#1
  let main_v7 : IVec S_ 1 := (fun x v => Host.reduce IntOp.andi x v reducesTo_S32x3x512x512_S_d0_1_2_3 h_S_) main_v6 main_c_1
  let main_v8 : IVec S_ 1 := andi main_v3 main_v7
  main_v8
-- ==== Kernel.lean ====
abbrev S32x3x512x512 : Shape := ⟨4, ![32, 3, 512, 512]⟩
abbrev S32x512 : Shape := ⟨2, ![32, 512]⟩
abbrev S8x3x64x512 : Shape := ⟨4, ![8, 3, 64, 512]⟩
abbrev S8x512 : Shape := ⟨2, ![8, 512]⟩
abbrev S8x64x512 : Shape := ⟨3, ![8, 64, 512]⟩
abbrev S_ : Shape := ⟨0, ![]⟩

abbrev nBuf : Space → Nat
  | .hbm => 19
  | .vmem => 12
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S32x512, .f32⟩
  | .hbm, ⟨3, _⟩ => ⟨S32x512, .f32⟩
  | .hbm, ⟨4, _⟩ => ⟨S32x512, .f32⟩
  | .hbm, ⟨5, _⟩ => ⟨S32x512, .f32⟩
  | .hbm, ⟨6, _⟩ => ⟨S32x512, .f32⟩
  | .hbm, ⟨7, _⟩ => ⟨S32x512, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S32x512, .f32⟩
  | .hbm, ⟨13, _⟩ => ⟨S32x512, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S8x3x64x512, .f32⟩
  | .local _ .vmem, ⟨1, _⟩ => ⟨S8x3x64x512, .f32⟩
  | .local _ .vmem, ⟨2, _⟩ => ⟨S8x3x64x512, .f32⟩
  | .local _ .vmem, ⟨3, _⟩ => ⟨S8x3x64x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x3x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S8x512_S8x512_0_0 : ∀ a, (![0, 0] : Fin 2 → Nat) a + S8x512.size a ≤ S8x512.size a
  h_S8x512 : 0 < S8x512.numel
  inb_S8x3x64x512_S8x3x64x512_0_0_0_0 : ∀ a, (![0, 0, 0, 0] : Fin 4 → Nat) a + S8x3x64x512.size a ≤ S8x3x64x512.size a
  h_S8x3x64x512 : 0 < S8x3x64x512.numel
  reduces_S8x3x64x512_S8x64x512 : S8x3x64x512.Reduces [1] S8x64x512
  shapeCasts_S8x512_S8x512 : S8x512.ShapeCasts S8x512
  reduces_S8x64x512_S8x512 : S8x64x512.Reduces [1] S8x512
  reducesTo_S32x512_S_d0_1 : S32x512.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x64x512.size a ≤ S32x3x512x512.size a
  hwx0_0 : ∀ i : grid0.Coords, EltTy.bits .f32 = 32 ∨ (Rect.block (s := S32x3x512x512) S8x3x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3x64x512.size a ≤ S32x3x512x512.size a
  hwx0_1 : ∀ i : grid0.Coords, EltTy.bits .f32 = 32 ∨ (Rect.block (s := S32x3x512x512) S8x3x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S32x512.size a
  hwx0_2 : ∀ i : grid0.Coords, EltTy.bits .f32 = 32 ∨ (Rect.block (s := S32x512) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S32x512.size a
  hwx0_3 : ∀ i : grid0.Coords, EltTy.bits .f32 = 32 ∨ (Rect.block (s := S32x512) S8x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x512.size a ≤ S32x512.size a
  hwx0_4 : ∀ i : grid0.Coords, EltTy.bits .f32 = 32 ∨ (Rect.block (s := S32x512) S8x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x512.size a ≤ S32x512.size a
  hwx0_5 : ∀ i : grid0.Coords, EltTy.bits .f32 = 32 ∨ (Rect.block (s := S32x512) S8x512.size (cc0_transform_5 i) (hinb0_5 i)).WholeWords (EltTy.packing .f32)

variable [Facts₀]

abbrev win0_0 : Pipeline.Window sig grid0 :=
  Pipeline.Window.ofSpec (Memref.whole main_arg0) S8x3x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x3x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S8x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S8x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x3x512x512 : Shape := ⟨4, ![32, 3, 512, 512]⟩
abbrev S_ : Shape := ⟨0, ![]⟩
abbrev S32x512x512 : Shape := ⟨3, ![32, 512, 512]⟩
abbrev S32x512 : Shape := ⟨2, ![32, 512]⟩

abbrev nBuf : Space → Nat
  | .hbm => 45
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S32x3x512x512, .f32⟩
  | .hbm, ⟨6, _⟩ => ⟨S32x3x512x512, .f32⟩
  | .hbm, ⟨7, _⟩ => ⟨S_, .f32⟩
  | .hbm, ⟨8, _⟩ => ⟨S32x3x512x512, .f32⟩
  | .hbm, ⟨9, _⟩ => ⟨S32x3x512x512, .f32⟩
  | .hbm, ⟨10, _⟩ => ⟨S32x3x512x512, .f32⟩
  | .hbm, ⟨11, _⟩ => ⟨S_, .f32⟩
  | .hbm, ⟨12, _⟩ => ⟨S32x512x512, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S32x3x512x512, .f32⟩
  | .hbm, ⟨17, _⟩ => ⟨S32x3x512x512, .f32⟩
  | .hbm, ⟨18, _⟩ => ⟨S_, .f32⟩
  | .hbm, ⟨19, _⟩ => ⟨S32x3x512x512, .f32⟩
  | .hbm, ⟨20, _⟩ => ⟨S32x3x512x512, .f32⟩
  | .hbm, ⟨21, _⟩ => ⟨S32x3x512x512, .f32⟩
  | .hbm, ⟨22, _⟩ => ⟨S_, .f32⟩
  | .hbm, ⟨23, _⟩ => ⟨S32x512x512, .f32⟩
  | .hbm, ⟨24, _⟩ => ⟨S_, .f32⟩
  | .hbm, ⟨25, _⟩ => ⟨S32x512, .f32⟩
  | .hbm, ⟨26, _⟩ => ⟨S_, .f32⟩
  | .hbm, ⟨27, _⟩ => ⟨S32x512, .f32⟩
  | .hbm, ⟨28, _⟩ => ⟨S32x512, .f32⟩
  | .hbm, ⟨29, _⟩ => ⟨S32x512, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S32x512, .f32⟩
  | .hbm, ⟨36, _⟩ => ⟨S_, .f32⟩
  | .hbm, ⟨37, _⟩ => ⟨S32x512, .f32⟩
  | .hbm, ⟨38, _⟩ => ⟨S32x512, .f32⟩
  | .hbm, ⟨39, _⟩ => ⟨S32x512, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_cst_3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v3 : Ref sig .tc := ⟨.hbm, 20, rfl⟩
abbrev main_v4 : Ref sig .tc := ⟨.hbm, 21, rfl⟩
abbrev main_cst_4 : Ref sig .tc := ⟨.hbm, 22, rfl⟩
abbrev main_v5 : Ref sig .tc := ⟨.hbm, 23, rfl⟩
abbrev main_cst_5 : Ref sig .tc := ⟨.hbm, 24, rfl⟩
abbrev main_v6 : Ref sig .tc := ⟨.hbm, 25, rfl⟩
abbrev main_cst_6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_7 : Ref sig .tc := ⟨.hbm, 30, rfl⟩
abbrev main_v10 : Ref sig .tc := ⟨.hbm, 31, rfl⟩
abbrev main_cst_8 : Ref sig .tc := ⟨.hbm, 32, rfl⟩
abbrev main_v11 : Ref sig .tc := ⟨.hbm, 33, rfl⟩
abbrev main_cst_9 : Ref sig .tc := ⟨.hbm, 34, rfl⟩
abbrev main_v12 : Ref sig .tc := ⟨.hbm, 35, rfl⟩
abbrev main_cst_10 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_11 : Ref sig .tc := ⟨.hbm, 40, rfl⟩
abbrev main_v16 : Ref sig .tc := ⟨.hbm, 41, rfl⟩
abbrev main_cst_12 : Ref sig .tc := ⟨.hbm, 42, rfl⟩
abbrev main_v17 : Ref sig .tc := ⟨.hbm, 43, rfl⟩
abbrev main_v18 : Ref sig .tc := ⟨.hbm, 44, rfl⟩

abbrev nD : Nat := 1
abbrev τ : Topo := Topo.v7x

variable {F : FTy → Type} [FloatOps F]

class Facts₀ : Prop where
  bcast_S_S32x3x512x512 : S_.BroadcastsInDim S32x3x512x512 (![] : Fin 0 → Fin S32x3x512x512.rank)
  reducesTo_S32x3x512x512_S32x512x512_d1 : S32x3x512x512.ReducesTo [1] S32x512x512
  h_S_ : 0 < S_.numel
  reducesTo_S32x512x512_S32x512_d1 : S32x512x512.ReducesTo [1] S32x512
  reducesTo_S32x512_S_d0_1 : S32x512.ReducesTo [0, 1] S_

variable [Facts₀]

class Facts : Prop extends Facts₀ where

variable [Facts]
-- ==== Proof.KernelPieces.lean ====
/-
  What each control case of the kernel body leaves in the four outputs' staging buffers, as values.

  The body forms, of the prediction block `x0` and the target block `x1` (each 8 images × 3 channels × 64 rows × 512
  columns), the value channel of the block (clip, round down, maximum over channels: the payload `k0_pay7`, and
  `k0_pay8`, the same function, for the target), takes its minimum and its maximum over the block's 64 rows, and folds
  them into the four running outputs:
      darkest prediction row   ← min (what the buffer held) (block minimum)      (`k0_pay9`)
      brightest prediction row ← max (what the buffer held) (block maximum)      (`k0_pay10`)
      darkest target row       ← min …                                           (`k0_pay1`)
      brightest target row     ← max …                                           (`k0_pay2`)
  At the first row block of an image block (case A) "what the buffer held" is the seed the body has just stored there —
  255 for a minimum, 0 for a maximum (`k0_pay3` … `k0_pay6`) —; at the others (case B) it is what the point before left.
  Each lemma reads the case's covering store back: its payload, the loads in it read through whole buffers.
-/
import proofs.«138752_j71442486001672_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## Case A: the seed, then the block folded into it -/

theorem out_A_2 (c : Dev nD) (i : grid0.Coords) (a2 : Memref sig .tc .vmem S8x3x64x512 .f32) (h2 : a2.IsWhole) (a3 : Memref sig .tc .vmem S8x3x64x512 .f32) (h3 : a3.IsWhole) (a4 : Memref sig .tc .vmem S8x512 .f32) (h4 : a4.IsWhole) (a5 : Memref sig .tc .vmem S8x512 .f32) (h5 : a5.IsWhole) (a6 : Memref sig .tc .vmem S8x512 .f32) (h6 : a6.IsWhole) (a7 : Memref sig .tc .vmem S8x512 .f32) (h7 : a7.IsWhole) (hc : cond0_0 i)
    (x0 x1 : Vec F S8x3x64x512 .f32) :
    out0_A_2 c i a2 h2 a3 h3 a4 h4 a5 h5 a6 h6 a7 h7 hc x0 x1 = k0_pay9 x0 (k0_pay3 (F := F)) := by
  unfold out0_A_2
  rw [View.read_writes_eq_canon _ _ _ (cover0_A_2 c i a2 h2 a3 h3 a4 h4 a5 h5 a6 h6 a7 h7 hc x0 x1)]
  unfold kernelRun0_A
  dsimp only
  sl_unfold_words
  rw [View.canon_cons_unit_zero (S := S8x512) hz2, View.readCov_unit_zero (S := S8x512) _ hz2]
  simp only [View.readAt_eq_ld, h2.read_unread, h3.read_unread, View.ld_unit_zero (S := S8x512) hz2, View.ld_unit_zero (S := S8x3x64x512) hz4]

theorem out_A_3 (c : Dev nD) (i : grid0.Coords) (a2 : Memref sig .tc .vmem S8x3x64x512 .f32) (h2 : a2.IsWhole) (a3 : Memref sig .tc .vmem S8x3x64x512 .f32) (h3 : a3.IsWhole) (a4 : Memref sig .tc .vmem S8x512 .f32) (h4 : a4.IsWhole) (a5 : Memref sig .tc .vmem S8x512 .f32) (h5 : a5.IsWhole) (a6 : Memref sig .tc .vmem S8x512 .f32) (h6 : a6.IsWhole) (a7 : Memref sig .tc .vmem S8x512 .f32) (h7 : a7.IsWhole) (hc : cond0_0 i)
    (x0 x1 : Vec F S8x3x64x512 .f32) :
    out0_A_3 c i a2 h2 a3 h3 a4 h4 a5 h5 a6 h6 a7 h7 hc x0 x1 = k0_pay10 x0 (k0_pay4 (F := F)) := by
  unfold out0_A_3
  rw [View.read_writes_eq_canon _ _ _ (cover0_A_3 c i a2 h2 a3 h3 a4 h4 a5 h5 a6 h6 a7 h7 hc x0 x1)]
  unfold kernelRun0_A
  dsimp only
  sl_unfold_words
  rw [View.canon_cons_unit_zero (S := S8x512) hz2, View.readCov_unit_zero (S := S8x512) _ hz2]
  simp only [View.readAt_eq_ld, h2.read_unread, h3.read_unread, View.ld_unit_zero (S := S8x512) hz2, View.ld_unit_zero (S := S8x3x64x512) hz4]

theorem out_A_4 (c : Dev nD) (i : grid0.Coords) (a2 : Memref sig .tc .vmem S8x3x64x512 .f32) (h2 : a2.IsWhole) (a3 : Memref sig .tc .vmem S8x3x64x512 .f32) (h3 : a3.IsWhole) (a4 : Memref sig .tc .vmem S8x512 .f32) (h4 : a4.IsWhole) (a5 : Memref sig .tc .vmem S8x512 .f32) (h5 : a5.IsWhole) (a6 : Memref sig .tc .vmem S8x512 .f32) (h6 : a6.IsWhole) (a7 : Memref sig .tc .vmem S8x512 .f32) (h7 : a7.IsWhole) (hc : cond0_0 i)
    (x0 x1 : Vec F S8x3x64x512 .f32) :
    out0_A_4 c i a2 h2 a3 h3 a4 h4 a5 h5 a6 h6 a7 h7 hc x0 x1 = k0_pay1 (k0_pay8 x1) (k0_pay5 (F := F)) := by
  unfold out0_A_4
  rw [View.read_writes_eq_canon _ _ _ (cover0_A_4 c i a2 h2 a3 h3 a4 h4 a5 h5 a6 h6 a7 h7 hc x0 x1)]
  unfold kernelRun0_A
  dsimp only
  sl_unfold_words
  rw [View.canon_cons_unit_zero (S := S8x512) hz2, View.readCov_unit_zero (S := S8x512) _ hz2]
  simp only [View.readAt_eq_ld, h2.read_unread, h3.read_unread, View.ld_unit_zero (S := S8x512) hz2, View.ld_unit_zero (S := S8x3x64x512) hz4]

theorem out_A_5 (c : Dev nD) (i : grid0.Coords) (a2 : Memref sig .tc .vmem S8x3x64x512 .f32) (h2 : a2.IsWhole) (a3 : Memref sig .tc .vmem S8x3x64x512 .f32) (h3 : a3.IsWhole) (a4 : Memref sig .tc .vmem S8x512 .f32) (h4 : a4.IsWhole) (a5 : Memref sig .tc .vmem S8x512 .f32) (h5 : a5.IsWhole) (a6 : Memref sig .tc .vmem S8x512 .f32) (h6 : a6.IsWhole) (a7 : Memref sig .tc .vmem S8x512 .f32) (h7 : a7.IsWhole) (hc : cond0_0 i)
    (x0 x1 : Vec F S8x3x64x512 .f32) :
    out0_A_5 c i a2 h2 a3 h3 a4 h4 a5 h5 a6 h6 a7 h7 hc x0 x1 = k0_pay2 (k0_pay8 x1) (k0_pay6 (F := F)) := by
  unfold out0_A_5
  rw [View.read_writes_eq_canon _ _ _ (cover0_A_5 c i a2 h2 a3 h3 a4 h4 a5 h5 a6 h6 a7 h7 hc x0 x1)]
  unfold kernelRun0_A
  dsimp only
  sl_unfold_words
  rw [View.canon_cons_unit_zero (S := S8x512) hz2, View.readCov_unit_zero (S := S8x512) _ hz2]
  simp only [View.readAt_eq_ld, h2.read_unread, h3.read_unread, View.ld_unit_zero (S := S8x512) hz2, View.ld_unit_zero (S := S8x3x64x512) hz4]

/-! ## Case B: the block folded into what the point before left -/

theorem out_B_2 (c : Dev nD) (i : grid0.Coords) (a2 : Memref sig .tc .vmem S8x3x64x512 .f32) (h2 : a2.IsWhole) (a3 : Memref sig .tc .vmem S8x3x64x512 .f32) (h3 : a3.IsWhole) (a4 : Memref sig .tc .vmem S8x512 .f32) (h4 : a4.IsWhole) (a5 : Memref sig .tc .vmem S8x512 .f32) (h5 : a5.IsWhole) (a6 : Memref sig .tc .vmem S8x512 .f32) (h6 : a6.IsWhole) (a7 : Memref sig .tc .vmem S8x512 .f32) (h7 : a7.IsWhole) (hc : ¬cond0_0 i)
    (x0 x1 : Vec F S8x3x64x512 .f32) (xo2 xo3 xo4 xo5 : Vec F S8x512 .f32) :
    out0_B_2 c i a2 h2 a3 h3 a4 h4 a5 h5 a6 h6 a7 h7 hc x0 x1 xo2 xo3 xo4 xo5 = k0_pay9 x0 xo2 := by
  unfold out0_B_2
  rw [View.read_writes_eq_canon _ _ _ (cover0_B_2 c i a2 h2 a3 h3 a4 h4 a5 h5 a6 h6 a7 h7 hc x0 x1 xo2 xo3 xo4 xo5)]
  unfold kernelRun0_B
  dsimp only
  sl_unfold_words
  rw [View.canon_unit_zero hz2]
  simp only [View.readAt_eq_ld, h2.read_unread, h3.read_unread, h4.read_unread, h5.read_unread, h6.read_unread, h7.read_unread, View.ld_unit_zero (S := S8x512) hz2, View.ld_unit_zero (S := S8x3x64x512) hz4]

theorem out_B_3 (c : Dev nD) (i : grid0.Coords) (a2 : Memref sig .tc .vmem S8x3x64x512 .f32) (h2 : a2.IsWhole) (a3 : Memref sig .tc .vmem S8x3x64x512 .f32) (h3 : a3.IsWhole) (a4 : Memref sig .tc .vmem S8x512 .f32) (h4 : a4.IsWhole) (a5 : Memref sig .tc .vmem S8x512 .f32) (h5 : a5.IsWhole) (a6 : Memref sig .tc .vmem S8x512 .f32) (h6 : a6.IsWhole) (a7 : Memref sig .tc .vmem S8x512 .f32) (h7 : a7.IsWhole) (hc : ¬cond0_0 i)
    (x0 x1 : Vec F S8x3x64x512 .f32) (xo2 xo3 xo4 xo5 : Vec F S8x512 .f32) :
    out0_B_3 c i a2 h2 a3 h3 a4 h4 a5 h5 a6 h6 a7 h7 hc x0 x1 xo2 xo3 xo4 xo5 = k0_pay10 x0 xo3 := by
  unfold out0_B_3
  rw [View.read_writes_eq_canon _ _ _ (cover0_B_3 c i a2 h2 a3 h3 a4 h4 a5 h5 a6 h6 a7 h7 hc x0 x1 xo2 xo3 xo4 xo5)]
  unfold kernelRun0_B
  dsimp only
  sl_unfold_words
  rw [View.canon_unit_zero hz2]
  simp only [View.readAt_eq_ld, h2.read_unread, h3.read_unread, h4.read_unread, h5.read_unread, h6.read_unread, h7.read_unread, View.ld_unit_zero (S := S8x512) hz2, View.ld_unit_zero (S := S8x3x64x512) hz4]

theorem out_B_4 (c : Dev nD) (i : grid0.Coords) (a2 : Memref sig .tc .vmem S8x3x64x512 .f32) (h2 : a2.IsWhole) (a3 : Memref sig .tc .vmem S8x3x64x512 .f32) (h3 : a3.IsWhole) (a4 : Memref sig .tc .vmem S8x512 .f32) (h4 : a4.IsWhole) (a5 : Memref sig .tc .vmem S8x512 .f32) (h5 : a5.IsWhole) (a6 : Memref sig .tc .vmem S8x512 .f32) (h6 : a6.IsWhole) (a7 : Memref sig .tc .vmem S8x512 .f32) (h7 : a7.IsWhole) (hc : ¬cond0_0 i)
    (x0 x1 : Vec F S8x3x64x512 .f32) (xo2 xo3 xo4 xo5 : Vec F S8x512 .f32) :
    out0_B_4 c i a2 h2 a3 h3 a4 h4 a5 h5 a6 h6 a7 h7 hc x0 x1 xo2 xo3 xo4 xo5 = k0_pay1 (k0_pay8 x1) xo4 := by
  unfold out0_B_4
  rw [View.read_writes_eq_canon _ _ _ (cover0_B_4 c i a2 h2 a3 h3 a4 h4 a5 h5 a6 h6 a7 h7 hc x0 x1 xo2 xo3 xo4 xo5)]
  unfold kernelRun0_B
  dsimp only
  sl_unfold_words
  rw [View.canon_unit_zero hz2]
  simp only [View.readAt_eq_ld, h2.read_unread, h3.read_unread, h4.read_unread, h5.read_unread, h6.read_unread, h7.read_unread, View.ld_unit_zero (S := S8x512) hz2, View.ld_unit_zero (S := S8x3x64x512) hz4]

theorem out_B_5 (c : Dev nD) (i : grid0.Coords) (a2 : Memref sig .tc .vmem S8x3x64x512 .f32) (h2 : a2.IsWhole) (a3 : Memref sig .tc .vmem S8x3x64x512 .f32) (h3 : a3.IsWhole) (a4 : Memref sig .tc .vmem S8x512 .f32) (h4 : a4.IsWhole) (a5 : Memref sig .tc .vmem S8x512 .f32) (h5 : a5.IsWhole) (a6 : Memref sig .tc .vmem S8x512 .f32) (h6 : a6.IsWhole) (a7 : Memref sig .tc .vmem S8x512 .f32) (h7 : a7.IsWhole) (hc : ¬cond0_0 i)
    (x0 x1 : Vec F S8x3x64x512 .f32) (xo2 xo3 xo4 xo5 : Vec F S8x512 .f32) :
    out0_B_5 c i a2 h2 a3 h3 a4 h4 a5 h5 a6 h6 a7 h7 hc x0 x1 xo2 xo3 xo4 xo5 = k0_pay2 (k0_pay8 x1) xo5 := by
  unfold out0_B_5
  rw [View.read_writes_eq_canon _ _ _ (cover0_B_5 c i a2 h2 a3 h3 a4 h4 a5 h5 a6 h6 a7 h7 hc x0 x1 xo2 xo3 xo4 xo5)]
  unfold kernelRun0_B
  dsimp only
  sl_unfold_words
  rw [View.canon_unit_zero hz2]
  simp only [View.readAt_eq_ld, h2.read_unread, h3.read_unread, h4.read_unread, h5.read_unread, h6.read_unread, h7.read_unread, View.ld_unit_zero (S := S8x512) hz2, View.ld_unit_zero (S := S8x3x64x512) hz4]

end Cert.KernelIdeal.Pieces

end
-- ==== Proof.SeededFold.lean ====
/-
  Order facts on the extended reals behind a minimum (or maximum) over a long axis that is computed block by block
  into a running value seeded at a BOUND of the data rather than at the lattice's top (bottom).

  * Clipping to `[lo, hi]` and rounding down stays in `[lo, hi]` when `lo = 0 ≤ hi`: `⌊y⌋ ≤ y` everywhere on the
    extended reals, and `0 ≤ y` gives `0 ≤ ⌊y⌋`. No finiteness of the clipped value is asked: the clip itself lands it
    between the two bounds.
  * A running minimum is carried by its lower bounds: `a` "is the minimum of `K` and of `g` on the first `n` coordinates"
    means `z ≤ a ↔ z ≤ K ∧ ∀ k < n, z ≤ g k`. Meeting it with the minimum of the next `len` coordinates extends `n` by
    `len` (`min` is the meet: `z ≤ min a b ↔ z ≤ a ∧ z ≤ b`); seeding it at `K` starts it. Once every coordinate is in
    and every `g k ≤ K`, the seed is absorbed: over a NON-EMPTY axis `z ≤ g k ≤ K` for some `k`, so the running value is
    the plain minimum from `⊤`. The maximum is the order dual, seeded at a lower bound `Z`.
-/
import Idealize.ShloMosaic.PureOps.Ideal
import Idealize.ShloMosaic.PureOps.Ideal.Laws
import Mathlib.Data.Finset.Fold
import Idealize.ShloMosaic.PureOps.Reduce

noncomputable section

namespace Cert.SeededFold

open Idealize.ShloMosaic

/-! ## The three float patterns that are read as values -/

/-- The pattern of `+inf` is the top of the extended reals. -/
theorem ofBits_pinf : Ideal.ofBits .f32 0x7F800000#32 = ⊤ := by
  simp [Ideal.ofBits, Ideal.ieee]

/-- The pattern of `-inf` is the bottom. -/
theorem ofBits_ninf : Ideal.ofBits .f32 0xFF800000#32 = ⊥ := by
  simp [Ideal.ofBits, Ideal.ieee]

/-- The pattern of `255.0` is the real `255`. -/
theorem ofBits_255 : Ideal.ofBits .f32 0x437F0000#32 = ((255 : ℝ) : EReal) := by
  simp [Ideal.ofBits, Ideal.ieee, -EReal.coe_mul]; norm_num

/-- So `0 ≤ 255.0`. -/
theorem zero_le_255 : (0 : EReal) ≤ Ideal.ofBits .f32 0x437F0000#32 := by
  rw [ofBits_255]; exact EReal.coe_nonneg.mpr (by norm_num)

/-! ## Rounding down, on the extended reals -/

/-- `⌊y⌋ ≤ y`, the infinities fixed. -/
theorem floor_le (y : EReal) : Ideal.liftRound Int.floor y ≤ y := by
  induction y using EReal.rec with
  | bot => simp
  | top => simp
  | coe r => rw [Ideal.liftRound_coe]; exact EReal.coe_le_coe_iff.mpr (Int.floor_le r)

/-- `0 ≤ y` gives `0 ≤ ⌊y⌋`: zero is an integer. -/
theorem zero_le_floor {y : EReal} (h : 0 ≤ y) : 0 ≤ Ideal.liftRound Int.floor y := by
  induction y using EReal.rec with
  | bot => exact absurd h (by simp)
  | top => simp
  | coe r =>
    rw [Ideal.liftRound_coe]
    have hr : (0 : ℝ) ≤ r := EReal.coe_nonneg.mp h
    exact EReal.coe_nonneg.mpr (by exact_mod_cast Int.floor_nonneg.mpr hr)

/-- An entry clipped to `[lo, hi]` and rounded down. -/
def quant (lo hi x : EReal) : EReal := Ideal.liftRound Int.floor (min hi (max lo x))

theorem quant_le (lo hi x : EReal) : quant lo hi x ≤ hi :=
  (floor_le _).trans (min_le_left _ _)

theorem le_quant {lo hi : EReal} (hlo : lo = 0) (hhi : 0 ≤ hi) (x : EReal) : lo ≤ quant lo hi x := by
  subst hlo
  exact zero_le_floor (le_min hhi (le_max_left _ _))

/-- The maximum from `⊥` of finitely many (at least one) values of `[lo, hi]` is in `[lo, hi]`. -/
theorem fold_max_mem {ι : Type} [Fintype ι] [Nonempty ι] (g : ι → EReal) {lo hi : EReal} (h : ∀ k, lo ≤ g k ∧ g k ≤ hi) :
    lo ≤ Finset.univ.fold max ⊥ g ∧ Finset.univ.fold max ⊥ g ≤ hi := by
  obtain ⟨k⟩ := ‹Nonempty ι›
  exact ⟨(Finset.le_fold_max lo).mpr (Or.inr ⟨k, Finset.mem_univ _, (h k).1⟩),
    (Finset.fold_max_le hi).mpr ⟨bot_le, fun k _ => (h k).2⟩⟩

/-! ## A running minimum seeded at an upper bound -/

section Min

variable {M : ℕ} (g : Fin M → EReal)

/-- `a` is the minimum of `K` and of `g` over the coordinates below `n`: said by `a`'s lower bounds. -/
def MinTo (K a : EReal) (n : ℕ) : Prop :=
  ∀ z, z ≤ a ↔ z ≤ K ∧ ∀ k : Fin M, k.val < n → z ≤ g k

/-- `b` is the minimum of `g` over the coordinates `lo ≤ k < lo + len`. -/
def MinOn (b : EReal) (lo len : ℕ) : Prop :=
  ∀ z, z ≤ b ↔ ∀ k : Fin M, lo ≤ k.val → k.val < lo + len → z ≤ g k

variable {g}

/-- The seed met with the first block's minimum. -/
theorem MinTo.seed {K b : EReal} {len : ℕ} (h : MinOn g b 0 len) : MinTo g K (min K b) len := by
  intro z
  rw [le_min_iff, h z]
  exact and_congr_right fun _ => forall_congr' fun k => by simp

/-- The running value met with the next block's minimum. -/
theorem MinTo.step {K a b : EReal} {n len : ℕ} (ha : MinTo g K a n) (hb : MinOn g b n len) :
    MinTo g K (min a b) (n + len) := by
  intro z
  rw [le_min_iff, ha z, hb z]
  constructor
  · rintro ⟨⟨hK, h1⟩, h2⟩
    exact ⟨hK, fun k hk => (lt_or_ge k.val n).elim (h1 k) (fun hge => h2 k hge hk)⟩
  · rintro ⟨hK, h⟩
    exact ⟨⟨hK, fun k hk => h k (by omega)⟩, fun k _ hk => h k hk⟩

/-- With every coordinate in, over a non-empty axis whose values the seed bounds, the seed is absorbed. -/
theorem MinTo.eq_fold {K a : EReal} (ha : MinTo g K a M) (hM : 0 < M) (hg : ∀ k, g k ≤ K) :
    a = Finset.univ.fold min ⊤ g := by
  refine eq_of_forall_le_iff fun z => ?_
  rw [ha z, Finset.le_fold_min]
  constructor
  · rintro ⟨_, h⟩; exact ⟨le_top, fun k _ => h k k.isLt⟩
  · rintro ⟨_, h⟩
    exact ⟨(h ⟨0, hM⟩ (Finset.mem_univ _)).trans (hg _), fun k _ => h k (Finset.mem_univ _)⟩

/-- A block's minimum from `⊤`, the block's values being `g`'s at an offset. -/
theorem MinOn.of_fold {B : ℕ} (f : Fin B → EReal) (lo : ℕ)
    (hf : ∀ (k' : Fin B) (h : lo + k'.val < M), f k' = g ⟨lo + k'.val, h⟩) (hB : lo + B ≤ M) :
    MinOn g (Finset.univ.fold min ⊤ f) lo B := by
  intro z
  rw [Finset.le_fold_min]
  constructor
  · rintro ⟨_, h⟩ k h1 h2
    have hk : lo + (k.val - lo) < M := by have := k.isLt; omega
    have hz := h ⟨k.val - lo, by omega⟩ (Finset.mem_univ _)
    rw [hf _ hk] at hz
    have e : (⟨lo + (k.val - lo), hk⟩ : Fin M) = k := Fin.ext (by show lo + (k.val - lo) = k.val; omega)
    rwa [e] at hz
  · intro h
    refine ⟨le_top, fun k' _ => ?_⟩
    have hk : lo + k'.val < M := by have := k'.isLt; omega
    rw [hf k' hk]
    exact h _ (by show lo ≤ lo + k'.val; omega) (by show lo + k'.val < lo + B; have := k'.isLt; omega)

end Min

/-! ## A running maximum seeded at a lower bound: the order dual -/

section Max

variable {M : ℕ} (g : Fin M → EReal)

/-- `a` is the maximum of `Z` and of `g` over the coordinates below `n`: said by `a`'s upper bounds. -/
def MaxTo (Z a : EReal) (n : ℕ) : Prop :=
  ∀ z, a ≤ z ↔ Z ≤ z ∧ ∀ k : Fin M, k.val < n → g k ≤ z

/-- `b` is the maximum of `g` over the coordinates `lo ≤ k < lo + len`. -/
def MaxOn (b : EReal) (lo len : ℕ) : Prop :=
  ∀ z, b ≤ z ↔ ∀ k : Fin M, lo ≤ k.val → k.val < lo + len → g k ≤ z

variable {g}

theorem MaxTo.seed {Z b : EReal} {len : ℕ} (h : MaxOn g b 0 len) : MaxTo g Z (max Z b) len := by
  intro z
  rw [max_le_iff, h z]
  exact and_congr_right fun _ => forall_congr' fun k => by simp

theorem MaxTo.step {Z a b : EReal} {n len : ℕ} (ha : MaxTo g Z a n) (hb : MaxOn g b n len) :
    MaxTo g Z (max a b) (n + len) := by
  intro z
  rw [max_le_iff, ha z, hb z]
  constructor
  · rintro ⟨⟨hZ, h1⟩, h2⟩
    exact ⟨hZ, fun k hk => (lt_or_ge k.val n).elim (h1 k) (fun hge => h2 k hge hk)⟩
  · rintro ⟨hZ, h⟩
    exact ⟨⟨hZ, fun k hk => h k (by omega)⟩, fun k _ hk => h k hk⟩

theorem MaxTo.eq_fold {Z a : EReal} (ha : MaxTo g Z a M) (hM : 0 < M) (hg : ∀ k, Z ≤ g k) :
    a = Finset.univ.fold max ⊥ g := by
  refine eq_of_forall_ge_iff fun z => ?_
  rw [ha z, Finset.fold_max_le]
  constructor
  · rintro ⟨_, h⟩; exact ⟨bot_le, fun k _ => h k k.isLt⟩
  · rintro ⟨_, h⟩
    exact ⟨(hg _).trans (h ⟨0, hM⟩ (Finset.mem_univ _)), fun k _ => h k (Finset.mem_univ _)⟩

theorem MaxOn.of_fold {B : ℕ} (f : Fin B → EReal) (lo : ℕ)
    (hf : ∀ (k' : Fin B) (h : lo + k'.val < M), f k' = g ⟨lo + k'.val, h⟩) (hB : lo + B ≤ M) :
    MaxOn g (Finset.univ.fold max ⊥ f) lo B := by
  intro z
  rw [Finset.fold_max_le]
  constructor
  · rintro ⟨_, h⟩ k h1 h2
    have hk : lo + (k.val - lo) < M := by have := k.isLt; omega
    have hz := h ⟨k.val - lo, by omega⟩ (Finset.mem_univ _)
    rw [hf _ hk] at hz
    have e : (⟨lo + (k.val - lo), hk⟩ : Fin M) = k := Fin.ext (by show lo + (k.val - lo) = k.val; omega)
    rwa [e] at hz
  · intro h
    refine ⟨bot_le, fun k' _ => ?_⟩
    have hk : lo + k'.val < M := by have := k'.isLt; omega
    rw [hf k' hk]
    exact h _ (by show lo ≤ lo + k'.val; omega) (by show lo + k'.val < lo + B; have := k'.isLt; omega)

end Max

/-! ## A `multi_reduction <minimumf>` over one axis, at the ideal instance -/

/-- A float `vector.multi_reduction <minimumf>` over one axis, read at `Ideal`: the fold of `min` from the accumulator's value
    over that axis's coordinates (the library states the same for `<maximumf>`; the proof is the same two steps). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-! ## The float field's `minimumf` / `maximumf` folds are the lattice's -/

theorem fold_minimumf {ι : Type} (s : Finset ι) (b : Ideal .f32) (f : ι → Ideal .f32) :
    s.fold (FloatOps.minimumf (F := Ideal) (φ := .f32)) b f = s.fold (min : EReal → EReal → EReal) b f := rfl

theorem fold_maximumf {ι : Type} (s : Finset ι) (b : Ideal .f32) (f : ι → Ideal .f32) :
    s.fold (FloatOps.maximumf (F := Ideal) (φ := .f32)) b f = s.fold (max : EReal → EReal → EReal) b f := rfl

end Cert.SeededFold

end
-- ==== Proof.RefSpec.lean ====
/-
  The reference, named piece by piece, and each piece read at an index at the ideal instance.

  For an image `x : [32, 3, 512, 512]` the reference forms the VALUE CHANNEL
      vch x (b, h, w) = max over the three channels c of ⌊ min(255, max(0, x (b, c, h, w))) ⌋
  (a clip to the byte range, rounded down, the brightest channel), then its darkest and brightest row per column,
      hmin x (b, w) = min over h of vch x (b, h, w),      hmax x (b, w) = max over h of vch x (b, h, w),
  and of two images' `hmin`s and `hmax`s the scalar
      tail a b c d = mean ((a - c)²) + mean ((b - d)²)        (the means over all 32 · 512 entries).
  The definitions below are the reference program's own terms (the host operations, composed), so the program's result
  IS `tail (hmin P) (hmax P) (hmin T) (hmax T)` of its two arguments. At the ideal instance a one-axis `stablehlo.reduce` of
  `max` / `min` is the lattice fold over that axis's coordinates from the pattern of `-inf` / `+inf`, which are `⊥` / `⊤`;
  and every `vch` value lies in `[0, 255]`: a clipped entry does, rounding down keeps it there, and so does the maximum
  of three such values.
-/
import proofs.«138752_j71442486001672_1_alg».proof.Proof.Gen.ReferenceIdeal
import proofs.«138752_j71442486001672_1_alg».proof.Proof.SeededFold
import Idealize.ShloMosaic.PureOps.Reduce
import Idealize.ShloMosaic.PureOps.Ideal.Laws

noncomputable section

namespace Cert.ReferenceIdeal.Spec

open Idealize.ShloMosaic Cert.ReferenceIdeal Cert.ReferenceIdeal.Gen Cert.SeededFold

variable {F : FTy → Type} [FloatOps F]

/-- The value channel: clip to `[0, 255]`, round down, maximum over the channel axis. -/
def vch (x : FVec F S32x3x512x512 .f32) : FVec F S32x512x512 .f32 :=
  Host.reduce FloatOps.maximumf (Host.floor (minimumf (broadcastInDim S32x3x512x512 ![] bcast_S_S32x3x512x512 (id (constant S_ .f32 0x437F0000#32))) (maximumf (broadcastInDim S32x3x512x512 ![] bcast_S_S32x3x512x512 (id (constant S_ .f32 0x00000000#32))) x))) (constant S_ .f32 0xFF800000#32) reducesTo_S32x3x512x512_S32x512x512_d1 h_S_

/-- The darkest row of the value channel, per image and column. -/
def hmin (x : FVec F S32x3x512x512 .f32) : FVec F S32x512 .f32 :=
  Host.reduce FloatOps.minimumf (vch x) (constant S_ .f32 0x7F800000#32) reducesTo_S32x512x512_S32x512_d1 h_S_

/-- The brightest row. -/
def hmax (x : FVec F S32x3x512x512 .f32) : FVec F S32x512 .f32 :=
  Host.reduce FloatOps.maximumf (vch x) (constant S_ .f32 0xFF800000#32) reducesTo_S32x512x512_S32x512_d1 h_S_

/-- The loss: the mean squared difference of the darkest rows plus that of the brightest rows. -/
def tail (a b c d : FVec F S32x512 .f32) : FVec F S_ .f32 :=
  addf (Host.divf (Host.reduceAdd (mulf (subf a c) (subf a c)) (constant S_ .f32 0x00000000#32) reducesTo_S32x512_S_d0_1 h_S_) (constant S_ .f32 0x46800000#32))
    (Host.divf (Host.reduceAdd (mulf (subf b d) (subf b d)) (constant S_ .f32 0x00000000#32) reducesTo_S32x512_S_d0_1 h_S_) (constant S_ .f32 0x46800000#32))

/-! ## At the ideal instance -/

/-- The clip's bounds as extended reals. -/
abbrev lo : EReal := Ideal.ofBits .f32 0x00000000#32
abbrev hi : EReal := Ideal.ofBits .f32 0x437F0000#32

theorem red4 : S32x3x512x512.Reduces [1] S32x512x512 := by decide
theorem red3 : S32x512x512.Reduces [1] S32x512 := by decide

/-- The value channel at `(b, h, w)`: the maximum from `⊥` over the three channels of the clipped, rounded entry. -/
theorem vch_apply (x : FVec Ideal S32x3x512x512 .f32) (I : S32x512x512.Idx) :
    vch (F := Ideal) x I = Finset.univ.fold max ⊥ (fun k : Fin 3 => quant lo hi (x (red4.lift I k))) := by
  unfold vch
  rw [Host.reduce_eq_fold_single FloatOps.maximumf _ _ reducesTo_S32x3x512x512_S32x512x512_d1 red4 h_S_ I, fold_maximumf]
  show Finset.univ.fold max (Ideal.ofBits .f32 0xFF800000#32) (fun k : Fin 3 => quant lo hi (x (red4.lift I k))) = _
  rw [ofBits_ninf]

/-- Every value of the value channel is between the clip's bounds. -/
theorem vch_mem (x : FVec Ideal S32x3x512x512 .f32) (I : S32x512x512.Idx) :
    lo ≤ vch (F := Ideal) x I ∧ vch (F := Ideal) x I ≤ hi := by
  rw [vch_apply]
  exact fold_max_mem _ fun k => ⟨le_quant Ideal.ofBits_zero_f32 zero_le_255 _, quant_le _ _ _⟩

/-- The darkest row at `(b, w)`: the minimum from `⊤` over the 512 rows. -/
theorem hmin_apply (x : FVec Ideal S32x3x512x512 .f32) (J : S32x512.Idx) :
    hmin (F := Ideal) x J = Finset.univ.fold min ⊤ (vch (F := Ideal) x ∘ red3.lift J) := by
  unfold hmin
  rw [Host.reduce_eq_fold_single FloatOps.minimumf _ _ reducesTo_S32x512x512_S32x512_d1 red3 h_S_ J, fold_minimumf]
  exact congrArg (fun b => Finset.univ.fold (min : EReal → EReal → EReal) b (vch (F := Ideal) x ∘ red3.lift J)) ofBits_pinf

/-- The brightest row at `(b, w)`: the maximum from `⊥` over the 512 rows. -/
theorem hmax_apply (x : FVec Ideal S32x3x512x512 .f32) (J : S32x512.Idx) :
    hmax (F := Ideal) x J = Finset.univ.fold max ⊥ (vch (F := Ideal) x ∘ red3.lift J) := by
  unfold hmax
  rw [Host.reduce_eq_fold_single FloatOps.maximumf _ _ reducesTo_S32x512x512_S32x512_d1 red3 h_S_ J, fold_maximumf]
  exact congrArg (fun b => Finset.univ.fold (max : EReal → EReal → EReal) b (vch (F := Ideal) x ∘ red3.lift J)) ofBits_ninf

end Cert.ReferenceIdeal.Spec

end
-- ==== Proof.KernelBlocks.lean ====
/-
  One grid point of the kernel, read against the reference's value channel.

  The grid has 32 points, point `t` working on image block `t / 8` (8 images) and row block `t % 8` (64 rows). An entry
  `(b, ch, r, w)` of the prediction (or target) block at `t` is entry `(8 (t / 8) + b, ch, 64 (t % 8) + r, w)` of the
  array (`up4`; `up3`, `up2` drop the channel and then the row). So

    * the block's value channel at `(b, r, w)` is the reference's value channel `vch` of the whole array at
      `(8 (t / 8) + b, 64 (t % 8) + r, w)`: both are the maximum over the three channels of the same clipped, rounded
      entries (`chan_block`);
    * the block's minimum (maximum) over its 64 rows at `(b, w)` is therefore the minimum (maximum) of column
      `(8 (t / 8) + b, w)` of `vch` over the rows `64 (t % 8) ≤ h < 64 (t % 8) + 64` (`blockMin`, `blockMax`);
    * folding it into a running value that is the minimum of 255 and of the column's first `64 (t % 8)` rows gives the
      minimum of 255 and of its first `64 (t % 8) + 64` rows (`minStep`), and at `t % 8 = 0` the seed 255 starts it
      (`minSeed`); the maximum likewise with the seed 0.
-/
import proofs.«138752_j71442486001672_1_alg».proof.Proof.KernelPieces
import proofs.«138752_j71442486001672_1_alg».proof.Proof.RefSpec
import Idealize.ShloMosaic.PureOps.Reduce
import Idealize.ShloMosaic.PureOps.Ideal.Laws

set_option maxRecDepth 16384

noncomputable section

open Idealize.ShloMosaic Idealize.ShloMosaic.TcCoe Idealize.SL.Sem

namespace Cert.KernelIdeal.Blocks

open Cert.KernelIdeal Cert.KernelIdeal.Gen Cert.SeededFold
open Cert.ReferenceIdeal.Spec (vch lo hi red3 red4 vch_apply vch_mem)

-- the reference's value channel enters through `vch_apply` (its value at an index) and `vch_mem` (its bounds) only
attribute [local irreducible] Cert.ReferenceIdeal.Spec.vch

/-! ## Block coordinates as array coordinates -/

theorem lt32 (t : Fin cfg0.N) : t.val < 32 := lt_of_lt_of_eq t.isLt (show cfg0.N = 32 from N_0)

/-- An entry of an input block at point `t`, in the array. -/
def up4 (t : Fin cfg0.N) (i : S8x3x64x512.Idx) : Cert.ReferenceIdeal.S32x3x512x512.Idx := fun a =>
  match a with
  | ⟨0, _⟩ => ⟨8 * (t.val / 8) + (i 0).val, by have h : (i 0).val < 8 := (i 0).isLt; have := lt32 t; show _ < 32; omega⟩
  | ⟨1, _⟩ => ⟨(i 1).val, by have h : (i 1).val < 3 := (i 1).isLt; show _ < 3; exact h⟩
  | ⟨2, _⟩ => ⟨64 * (t.val % 8) + (i 2).val, by have h : (i 2).val < 64 := (i 2).isLt; show _ < 512; omega⟩
  | ⟨3, _⟩ => ⟨(i 3).val, by have h : (i 3).val < 512 := (i 3).isLt; show _ < 512; exact h⟩

/-- The same with the channel dropped: (image, row, column). -/
def up3 (t : Fin cfg0.N) (i : S8x64x512.Idx) : Cert.ReferenceIdeal.S32x512x512.Idx := fun a =>
  match a with
  | ⟨0, _⟩ => ⟨8 * (t.val / 8) + (i 0).val, by have h : (i 0).val < 8 := (i 0).isLt; have := lt32 t; show _ < 32; omega⟩
  | ⟨1, _⟩ => ⟨64 * (t.val % 8) + (i 1).val, by have h : (i 1).val < 64 := (i 1).isLt; show _ < 512; omega⟩
  | ⟨2, _⟩ => ⟨(i 2).val, by have h : (i 2).val < 512 := (i 2).isLt; show _ < 512; exact h⟩

/-- And with the row dropped: (image, column). -/
def up2 (t : Fin cfg0.N) (i : S8x512.Idx) : Cert.ReferenceIdeal.S32x512.Idx := fun a =>
  match a with
  | ⟨0, _⟩ => ⟨8 * (t.val / 8) + (i 0).val, by have h : (i 0).val < 8 := (i 0).isLt; have := lt32 t; show _ < 32; omega⟩
  | ⟨1, _⟩ => ⟨(i 1).val, by have h : (i 1).val < 512 := (i 1).isLt; show _ < 512; exact h⟩

/-- Inserting channel `k` commutes with passing to array coordinates. -/
theorem up4_lift (t : Fin cfg0.N) (i3 : S8x64x512.Idx) (k : Fin 3) :
    up4 t (reduces_S8x3x64x512_S8x64x512.lift i3 k) = red4.lift (up3 t i3) k := by
  funext a; apply Fin.ext
  match a with
  | ⟨0, _⟩ => rfl
  | ⟨1, _⟩ => rfl
  | ⟨2, _⟩ => rfl
  | ⟨3, _⟩ => rfl

/-- Inserting row `k'` of the block is inserting row `64 (t % 8) + k'` of the array. -/
theorem up3_lift (t : Fin cfg0.N) (i2 : S8x512.Idx) (k' : Fin (S8x64x512.size 1))
    (h : 64 * (t.val % 8) + k'.val < Cert.ReferenceIdeal.S32x512x512.size 1) :
    up3 t (reduces_S8x64x512_S8x512.lift i2 k') = red3.lift (up2 t i2) ⟨64 * (t.val % 8) + k'.val, h⟩ := by
  funext a; apply Fin.ext
  match a with
  | ⟨0, _⟩ => rfl
  | ⟨1, _⟩ => rfl
  | ⟨2, _⟩ => rfl

/-- Points of one image block name the same columns. -/
theorem up2_congr (t t' : Fin cfg0.N) (h : t'.val / 8 = t.val / 8) : up2 t' = up2 t := by
  funext i a; apply Fin.ext
  match a with
  | ⟨0, _⟩ => show 8 * (t'.val / 8) + (i 0).val = 8 * (t.val / 8) + (i 0).val; rw [h]
  | ⟨1, _⟩ => rfl

/-! ## The printed index maps, decided over the grid -/

theorem idx_in : ∀ t : Fin cfg0.N,
    (win0_0.index t (0 : Fin 4) = t.val / 8 ∧ win0_0.index t (1 : Fin 4) = 0 ∧ win0_0.index t (2 : Fin 4) = t.val % 8 ∧ win0_0.index t (3 : Fin 4) = 0)
    ∧ (win0_1.index t (0 : Fin 4) = t.val / 8 ∧ win0_1.index t (1 : Fin 4) = 0 ∧ win0_1.index t (2 : Fin 4) = t.val % 8 ∧ win0_1.index t (3 : Fin 4) = 0) :=
  (by decide +kernel : ∀ t : Fin grid0.N, _)

variable (m : (ℓ : Loc nD τ sig) → Buf (Elt Ideal) ℓ)

/-- The two argument arrays as the region finds them, and their blocks at a point, at their literal types. -/
abbrev pred (c : Dev nD) : FVec Ideal Cert.ReferenceIdeal.S32x3x512x512 .f32 := V m c main_arg0
abbrev tgt (c : Dev nD) : FVec Ideal Cert.ReferenceIdeal.S32x3x512x512 .f32 := V m c main_arg1
abbrev pblk (c : Dev nD) (t : Fin cfg0.N) : Vec Ideal S8x3x64x512 .f32 := iblk m c 0 t
abbrev tblk (c : Dev nD) (t : Fin cfg0.N) : Vec Ideal S8x3x64x512 .f32 := iblk m c 1 t

/-- The prediction's block at `t` reads the prediction at the block's array coordinates. -/
theorem pblk_apply (c : Dev nD) (t : Fin cfg0.N) (i : S8x3x64x512.Idx) : pblk m c t i = pred m c (up4 t i) := by
  obtain ⟨⟨e0, e1, e2, e3⟩, -⟩ := idx_in t
  unfold pblk iblk
  rw [View.read_apply]
  show V m c main_arg0 _ = V m c main_arg0 _
  congr 1
  funext a
  apply Fin.ext
  match a with
  | ⟨0, _⟩ => show win0_0.index t 0 * 8 + 1 * (i 0).val = 8 * (t.val / 8) + (i 0).val; rw [e0]; omega
  | ⟨1, _⟩ => show win0_0.index t 1 * 3 + 1 * (i 1).val = (i 1).val; rw [e1]; omega
  | ⟨2, _⟩ => show win0_0.index t 2 * 64 + 1 * (i 2).val = 64 * (t.val % 8) + (i 2).val; rw [e2]; omega
  | ⟨3, _⟩ => show win0_0.index t 3 * 512 + 1 * (i 3).val = (i 3).val; rw [e3]; omega

/-- The target's block likewise. -/
theorem tblk_apply (c : Dev nD) (t : Fin cfg0.N) (i : S8x3x64x512.Idx) : tblk m c t i = tgt m c (up4 t i) := by
  obtain ⟨-, ⟨e0, e1, e2, e3⟩⟩ := idx_in t
  unfold tblk iblk
  rw [View.read_apply]
  show V m c main_arg1 _ = V m c main_arg1 _
  congr 1
  funext a
  apply Fin.ext
  match a with
  | ⟨0, _⟩ => show win0_1.index t 0 * 8 + 1 * (i 0).val = 8 * (t.val / 8) + (i 0).val; rw [e0]; omega
  | ⟨1, _⟩ => show win0_1.index t 1 * 3 + 1 * (i 1).val = (i 1).val; rw [e1]; omega
  | ⟨2, _⟩ => show win0_1.index t 2 * 64 + 1 * (i 2).val = 64 * (t.val % 8) + (i 2).val; rw [e2]; omega
  | ⟨3, _⟩ => show win0_1.index t 3 * 512 + 1 * (i 3).val = (i 3).val; rw [e3]; omega

/-! ## The block's value channel is the reference's, at the block's coordinates -/

/-- The two value-channel payloads are one function. -/
theorem pay8_eq (x : Vec Ideal S8x3x64x512 .f32) : k0_pay8 (F := Ideal) x = k0_pay7 x := rfl

/-- The prediction's folding payloads are the target's, over the prediction block's value channel. -/
theorem pay9_eq (x : Vec Ideal S8x3x64x512 .f32) (acc : Vec Ideal S8x512 .f32) :
    k0_pay9 (F := Ideal) x acc = k0_pay1 (k0_pay7 x) acc := rfl
theorem pay10_eq (x : Vec Ideal S8x3x64x512 .f32) (acc : Vec Ideal S8x512 .f32) :
    k0_pay10 (F := Ideal) x acc = k0_pay2 (k0_pay7 x) acc := rfl

/-- The body's value channel at `(b, r, w)`: the maximum from `⊥` over the three channels of the clipped, rounded entry. -/
theorem pay7_apply (xb : Vec Ideal S8x3x64x512 .f32) (i3 : S8x64x512.Idx) :
    k0_pay7 (F := Ideal) xb i3
      = Finset.univ.fold max ⊥ (fun k : Fin 3 => quant lo hi (xb (reduces_S8x3x64x512_S8x64x512.lift i3 k))) := by
  unfold k0_pay7
  refine (Ideal.multiReduction_maximumf_single _ _ _ _ _ _).trans ?_
  show Finset.univ.fold max (Ideal.ofBits .f32 0xFF800000#32)
    (fun k : Fin 3 => quant lo hi (xb (reduces_S8x3x64x512_S8x64x512.lift i3 k))) = _
  rw [ofBits_ninf]

/-- For an array `X` whose block at `t` is `xb`: the block's value channel is `vch X` at the block's coordinates. -/
theorem chan_block (X : FVec Ideal Cert.ReferenceIdeal.S32x3x512x512 .f32) (xb : Vec Ideal S8x3x64x512 .f32) (t : Fin cfg0.N)
    (hb : ∀ i, xb i = X (up4 t i)) (i3 : S8x64x512.Idx) :
    k0_pay7 (F := Ideal) xb i3 = vch (F := Ideal) X (up3 t i3) := by
  rw [pay7_apply, vch_apply]
  refine congrArg (fun f : Fin 3 → EReal => Finset.univ.fold max ⊥ f) (funext fun k => ?_)
  rw [hb, up4_lift]

-- from here on the block's value channel is read through `chan_block` only
attribute [local irreducible] k0_pay7

/-! ## A column of the reference's value channel, and the block's share of it

A column's value at row `k` is `vch X` at the column's index with `k` inserted (`col_apply`: the definition of composition);
the statements below all pass through that equation. -/

/-- Column `J = (image, column)` of `vch X`, as a function of the row. -/
def col (X : FVec Ideal Cert.ReferenceIdeal.S32x3x512x512 .f32) (J : Cert.ReferenceIdeal.S32x512.Idx) :
    Fin (Cert.ReferenceIdeal.S32x512x512.size 1) → EReal :=
  vch (F := Ideal) X ∘ red3.lift J

theorem col_def (X : FVec Ideal Cert.ReferenceIdeal.S32x3x512x512 .f32) (J : Cert.ReferenceIdeal.S32x512.Idx) :
    col X J = vch (F := Ideal) X ∘ red3.lift J := rfl

theorem col_apply (X : FVec Ideal Cert.ReferenceIdeal.S32x3x512x512 .f32) (J : Cert.ReferenceIdeal.S32x512.Idx)
    (k : Fin (Cert.ReferenceIdeal.S32x512x512.size 1)) : col X J k = vch (F := Ideal) X (red3.lift J k) := by
  unfold col
  rw [Function.comp_apply]

theorem col_le (X : FVec Ideal Cert.ReferenceIdeal.S32x3x512x512 .f32) (J : Cert.ReferenceIdeal.S32x512.Idx)
    (k : Fin (Cert.ReferenceIdeal.S32x512x512.size 1)) : col X J k ≤ hi := by
  rw [col_apply]; exact (vch_mem X _).2
theorem le_col (X : FVec Ideal Cert.ReferenceIdeal.S32x3x512x512 .f32) (J : Cert.ReferenceIdeal.S32x512.Idx)
    (k : Fin (Cert.ReferenceIdeal.S32x512x512.size 1)) : lo ≤ col X J k := by
  rw [col_apply]; exact (vch_mem X _).1

section Block

variable (X : FVec Ideal Cert.ReferenceIdeal.S32x3x512x512 .f32) (xb : Vec Ideal S8x3x64x512 .f32) (t : Fin cfg0.N)
  (hb : ∀ i, xb i = X (up4 t i))
include hb

/-- Row `k'` of the block's value channel is row `64 (t % 8) + k'` of the column. -/
theorem chan_row (i2 : S8x512.Idx) (k' : Fin (S8x64x512.size 1))
    (h : 64 * (t.val % 8) + k'.val < Cert.ReferenceIdeal.S32x512x512.size 1) :
    (k0_pay7 (F := Ideal) xb ∘ reduces_S8x64x512_S8x512.lift i2) k' = col X (up2 t i2) ⟨64 * (t.val % 8) + k'.val, h⟩ := by
  rw [Function.comp_apply, col_apply, chan_block X xb t hb, up3_lift]

/-- The block's minimum over its 64 rows is the column's minimum over rows `64 (t % 8) ≤ h < 64 (t % 8) + 64`. -/
theorem blockMin (i2 : S8x512.Idx) :
    MinOn (col X (up2 t i2))
      (multiReduction .minimumf [1] S8x512 (k0_pay7 (F := Ideal) xb) 0x7F800000#32 reduces_S8x64x512_S8x512 (.inl rfl) rfl i2)
      (64 * (t.val % 8)) 64 := by
  have e : multiReduction .minimumf [1] S8x512 (k0_pay7 (F := Ideal) xb) 0x7F800000#32 reduces_S8x64x512_S8x512 (.inl rfl) rfl i2
      = Finset.univ.fold (min : EReal → EReal → EReal) ⊤ (k0_pay7 (F := Ideal) xb ∘ reduces_S8x64x512_S8x512.lift i2) :=
    (multiReduction_minimumf_single (k0_pay7 (F := Ideal) xb) 0x7F800000#32 reduces_S8x64x512_S8x512 (.inl rfl) rfl i2).trans
      (congrArg (fun b => Finset.univ.fold (min : EReal → EReal → EReal) b (k0_pay7 (F := Ideal) xb ∘ reduces_S8x64x512_S8x512.lift i2)) ofBits_pinf)
  rw [e]
  exact MinOn.of_fold (k0_pay7 (F := Ideal) xb ∘ reduces_S8x64x512_S8x512.lift i2) (64 * (t.val % 8))
    (fun k' h => chan_row X xb t hb i2 k' h) (by have := lt32 t; show 64 * (t.val % 8) + 64 ≤ 512; omega)

/-- The block's maximum likewise. -/
theorem blockMax (i2 : S8x512.Idx) :
    MaxOn (col X (up2 t i2))
      (multiReduction .maximumf [1] S8x512 (k0_pay7 (F := Ideal) xb) 0xFF800000#32 reduces_S8x64x512_S8x512 (.inl rfl) rfl i2)
      (64 * (t.val % 8)) 64 := by
  have e : multiReduction .maximumf [1] S8x512 (k0_pay7 (F := Ideal) xb) 0xFF800000#32 reduces_S8x64x512_S8x512 (.inl rfl) rfl i2
      = Finset.univ.fold (max : EReal → EReal → EReal) ⊥ (k0_pay7 (F := Ideal) xb ∘ reduces_S8x64x512_S8x512.lift i2) :=
    (Ideal.multiReduction_maximumf_single (k0_pay7 (F := Ideal) xb) 0xFF800000#32 reduces_S8x64x512_S8x512 (.inl rfl) rfl i2).trans
      (congrArg (fun b => Finset.univ.fold (max : EReal → EReal → EReal) b (k0_pay7 (F := Ideal) xb ∘ reduces_S8x64x512_S8x512.lift i2)) ofBits_ninf)
  rw [e]
  exact MaxOn.of_fold (k0_pay7 (F := Ideal) xb ∘ reduces_S8x64x512_S8x512.lift i2) (64 * (t.val % 8))
    (fun k' h => chan_row X xb t hb i2 k' h) (by have := lt32 t; show 64 * (t.val % 8) + 64 ≤ 512; omega)

end Block

/-! ## The folding payloads at an index -/

/-- The vector `minimumf` / `maximumf` at an index are the lattice's meet / join of the entries (stated for any two
    vectors; the payload lemmas below use them at the buffer's contents and the block's reduction). -/
theorem minimumf_at (a r : FVec Ideal S8x512 .f32) (i2 : S8x512.Idx) :
    (Idealize.ShloMosaic.minimumf (F := Ideal) (s := S8x512) (φ := .f32) a r i2 : EReal) = min (a i2 : EReal) (r i2 : EReal) := rfl
theorem maximumf_at (a r : FVec Ideal S8x512 .f32) (i2 : S8x512.Idx) :
    (Idealize.ShloMosaic.maximumf (F := Ideal) (s := S8x512) (φ := .f32) a r i2 : EReal) = max (a i2 : EReal) (r i2 : EReal) := rfl

/-- The minimum-folding payload: the buffer's value met with the block's minimum. -/
theorem pay1_apply (v : FVec Ideal S8x64x512 .f32) (acc : Vec Ideal S8x512 .f32) (i2 : S8x512.Idx) :
    (k0_pay1 (F := Ideal) v acc i2 : EReal)
      = min (acc i2 : EReal) (multiReduction .minimumf [1] S8x512 v 0x7F800000#32 reduces_S8x64x512_S8x512 (.inl rfl) rfl i2 : EReal) := by
  unfold k0_pay1
  simp only [shapeCast_self]
  exact minimumf_at acc _ i2

/-- The maximum-folding payload: the buffer's value joined with the block's maximum. -/
theorem pay2_apply (v : FVec Ideal S8x64x512 .f32) (acc : Vec Ideal S8x512 .f32) (i2 : S8x512.Idx) :
    (k0_pay2 (F := Ideal) v acc i2 : EReal)
      = max (acc i2 : EReal) (multiReduction .maximumf [1] S8x512 v 0xFF800000#32 reduces_S8x64x512_S8x512 (.inl rfl) rfl i2 : EReal) := by
  unfold k0_pay2
  simp only [shapeCast_self]
  exact maximumf_at acc _ i2

/-! ## One grid step of a running minimum / maximum -/

section Step

variable (X : FVec Ideal Cert.ReferenceIdeal.S32x3x512x512 .f32) (xb : Vec Ideal S8x3x64x512 .f32) (t : Fin cfg0.N)
  (hb : ∀ i, xb i = X (up4 t i))
include hb

theorem minStep (acc : Vec Ideal S8x512 .f32) (i2 : S8x512.Idx)
    (ha : MinTo (col X (up2 t i2)) hi (acc i2) (64 * (t.val % 8))) :
    MinTo (col X (up2 t i2)) hi (k0_pay1 (F := Ideal) (k0_pay7 xb) acc i2) (64 * (t.val % 8) + 64) := by
  rw [pay1_apply]
  exact ha.step (blockMin X xb t hb i2)

theorem minSeed (h0 : t.val % 8 = 0) (seed : Vec Ideal S8x512 .f32) (hseed : ∀ i, (seed i : EReal) = hi) (i2 : S8x512.Idx) :
    MinTo (col X (up2 t i2)) hi (k0_pay1 (F := Ideal) (k0_pay7 xb) seed i2) (64 * (t.val % 8) + 64) := by
  rw [pay1_apply, hseed]
  have hb0 := blockMin X xb t hb i2
  have e : 64 * (t.val % 8) = 0 := by omega
  rw [e] at hb0 ⊢
  rw [Nat.zero_add]
  exact MinTo.seed hb0

theorem maxStep (acc : Vec Ideal S8x512 .f32) (i2 : S8x512.Idx)
    (ha : MaxTo (col X (up2 t i2)) lo (acc i2) (64 * (t.val % 8))) :
    MaxTo (col X (up2 t i2)) lo (k0_pay2 (F := Ideal) (k0_pay7 xb) acc i2) (64 * (t.val % 8) + 64) := by
  rw [pay2_apply]
  exact ha.step (blockMax X xb t hb i2)

theorem maxSeed (h0 : t.val % 8 = 0) (seed : Vec Ideal S8x512 .f32) (hseed : ∀ i, (seed i : EReal) = lo) (i2 : S8x512.Idx) :
    MaxTo (col X (up2 t i2)) lo (k0_pay2 (F := Ideal) (k0_pay7 xb) seed i2) (64 * (t.val % 8) + 64) := by
  rw [pay2_apply, hseed]
  have hb0 := blockMax X xb t hb i2
  have e : 64 * (t.val % 8) = 0 := by omega
  rw [e] at hb0 ⊢
  rw [Nat.zero_add]
  exact MaxTo.seed hb0

end Step

/-- The seeds the body stores at the first row block: 255 for a minimum, 0 for a maximum. -/
theorem pay3_apply (i : S8x512.Idx) : (k0_pay3 (F := Ideal) i : EReal) = hi := rfl
theorem pay4_apply (i : S8x512.Idx) : (k0_pay4 (F := Ideal) i : EReal) = lo := rfl
theorem pay5_apply (i : S8x512.Idx) : (k0_pay5 (F := Ideal) i : EReal) = hi := rfl
theorem pay6_apply (i : S8x512.Idx) : (k0_pay6 (F := Ideal) i : EReal) = lo := rfl

end Cert.KernelIdeal.Blocks

end
-- ==== Proof.KernelFold.lean ====
/-
  The four result arrays of the kernel's region, and the kernel's result.

  After grid point `t` (image block `t / 8`, row block `t % 8`) the four output buffers hold, at `(b, w)`, running values
  over the rows `h < 64 (t % 8) + 64` of column `(8 (t / 8) + b, w)` of the value channel — of the prediction for the first
  two, of the target for the last two:
      the minimum of 255 and of those rows,     the maximum of 0 and of those rows.
  This is an induction on the point (`inv`): at a first row block (`t % 8 = 0`, case A of the body) the seed starts the
  run; at any other (case B) the point before left the same column's run up to row `64 (t % 8)`, and the body extends it by
  its 64 rows. At the last row block (`t % 8 = 7`) all 512 rows are in, every value of the value channel lies in
  `[0, 255]`, and the seeds are absorbed: the buffers hold the reference's `hmin` / `hmax` of the two images at the image
  block's columns (`last_2` … `last_5`). Those are the points that write back, their blocks tile the `[32, 512]` arrays, so
  the arrays end holding `hmin` / `hmax` whole (`final_2` … `final_5`), and the host operations after the region make of
  them the reference's own closing term `tail` (`tail_eq`, `run`).
-/
import proofs.«138752_j71442486001672_1_alg».proof.Proof.KernelBlocks
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Fold

open Cert.KernelIdeal Cert.KernelIdeal.Gen Cert.SeededFold Cert.KernelIdeal.Pieces Cert.KernelIdeal.Blocks
open Cert.ReferenceIdeal.Spec (vch hmin hmax tail lo hi red3 hmin_apply hmax_apply)

-- the reductions over whole arrays enter through their index lemmas only
attribute [local irreducible] Cert.ReferenceIdeal.Spec.vch Cert.ReferenceIdeal.Spec.hmin Cert.ReferenceIdeal.Spec.hmax Cert.ReferenceIdeal.Spec.tail k0_pay7

variable (m : (ℓ : Loc nD τ sig) → Buf (Elt Ideal) ℓ)

/-! ## What each case leaves, output by output, over the blocks and what the point before left -/

theorem accA_2 (c : Dev nD) (t : Fin cfg0.N) (h0 : t.val % 8 = 0) :
    (outsAt0 m c t.val t.isLt).1 = k0_pay9 (pblk m c t) (k0_pay3 (F := Ideal)) := by
  rw [outsAt0_A m c t h0]; dsimp only
  exact out_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t)
theorem accB_2 (c : Dev nD) (t : Fin cfg0.N) (h0 : ¬t.val % 8 = 0) :
    (outsAt0 m c t.val t.isLt).1 = k0_pay9 (pblk m c t) (outsAt0 m c (t.val - 1) (Nat.lt_of_le_of_lt (Nat.sub_le _ _) t.isLt)).1 := by
  rw [outsAt0_B m c t h0]; dsimp only
  exact out_B_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
theorem accA_3 (c : Dev nD) (t : Fin cfg0.N) (h0 : t.val % 8 = 0) :
    (outsAt0 m c t.val t.isLt).2.1 = k0_pay10 (pblk m c t) (k0_pay4 (F := Ideal)) := by
  rw [outsAt0_A m c t h0]; dsimp only
  exact out_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t)
theorem accB_3 (c : Dev nD) (t : Fin cfg0.N) (h0 : ¬t.val % 8 = 0) :
    (outsAt0 m c t.val t.isLt).2.1 = k0_pay10 (pblk m c t) (outsAt0 m c (t.val - 1) (Nat.lt_of_le_of_lt (Nat.sub_le _ _) t.isLt)).2.1 := by
  rw [outsAt0_B m c t h0]; dsimp only
  exact out_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
theorem accA_4 (c : Dev nD) (t : Fin cfg0.N) (h0 : t.val % 8 = 0) :
    (outsAt0 m c t.val t.isLt).2.2.1 = k0_pay1 (k0_pay8 (tblk m c t)) (k0_pay5 (F := Ideal)) := by
  rw [outsAt0_A m c t h0]; dsimp only
  exact out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t)
theorem accB_4 (c : Dev nD) (t : Fin cfg0.N) (h0 : ¬t.val % 8 = 0) :
    (outsAt0 m c t.val t.isLt).2.2.1 = k0_pay1 (k0_pay8 (tblk m c t)) (outsAt0 m c (t.val - 1) (Nat.lt_of_le_of_lt (Nat.sub_le _ _) t.isLt)).2.2.1 := by
  rw [outsAt0_B m c t h0]; dsimp only
  exact out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
theorem accA_5 (c : Dev nD) (t : Fin cfg0.N) (h0 : t.val % 8 = 0) :
    (outsAt0 m c t.val t.isLt).2.2.2 = k0_pay2 (k0_pay8 (tblk m c t)) (k0_pay6 (F := Ideal)) := by
  rw [outsAt0_A m c t h0]; dsimp only
  exact out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t)
theorem accB_5 (c : Dev nD) (t : Fin cfg0.N) (h0 : ¬t.val % 8 = 0) :
    (outsAt0 m c t.val t.isLt).2.2.2 = k0_pay2 (k0_pay8 (tblk m c t)) (outsAt0 m c (t.val - 1) (Nat.lt_of_le_of_lt (Nat.sub_le _ _) t.isLt)).2.2.2 := by
  rw [outsAt0_B m c t h0]; dsimp only
  exact out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- The running outputs at equal points are equal. -/
theorem outsAt0_congr (c : Dev nD) {n n' : ℕ} (h : n = n') (p : n < cfg0.N) (p' : n' < cfg0.N) :
    outsAt0 m c n p = outsAt0 m c n' p' := by
  subst h; rfl

/-! ## The invariant -/

/-- After point `t`: each buffer's entry `(b, w)` is the seeded running minimum / maximum of its column's rows so far. -/
def Inv (c : Dev nD) (t : Fin cfg0.N) : Prop :=
  (∀ i2 : S8x512.Idx, MinTo (col (pred m c) (up2 t i2)) hi ((outsAt0 m c t.val t.isLt).1 i2) (64 * (t.val % 8) + 64))
  ∧ (∀ i2 : S8x512.Idx, MaxTo (col (pred m c) (up2 t i2)) lo ((outsAt0 m c t.val t.isLt).2.1 i2) (64 * (t.val % 8) + 64))
  ∧ (∀ i2 : S8x512.Idx, MinTo (col (tgt m c) (up2 t i2)) hi ((outsAt0 m c t.val t.isLt).2.2.1 i2) (64 * (t.val % 8) + 64))
  ∧ (∀ i2 : S8x512.Idx, MaxTo (col (tgt m c) (up2 t i2)) lo ((outsAt0 m c t.val t.isLt).2.2.2 i2) (64 * (t.val % 8) + 64))

/-- At a first row block the seeds start the four runs. -/
theorem inv_seed (c : Dev nD) (t : Fin cfg0.N) (h0 : t.val % 8 = 0) : Inv m c t := by
  refine ⟨fun i2 => ?_, fun i2 => ?_, fun i2 => ?_, fun i2 => ?_⟩
  · rw [accA_2 m c t h0, pay9_eq]
    exact minSeed (pred m c) (pblk m c t) t (pblk_apply m c t) h0 _ pay3_apply i2
  · rw [accA_3 m c t h0, pay10_eq]
    exact maxSeed (pred m c) (pblk m c t) t (pblk_apply m c t) h0 _ pay4_apply i2
  · rw [accA_4 m c t h0, pay8_eq]
    exact minSeed (tgt m c) (tblk m c t) t (tblk_apply m c t) h0 _ pay5_apply i2
  · rw [accA_5 m c t h0, pay8_eq]
    exact maxSeed (tgt m c) (tblk m c t) t (tblk_apply m c t) h0 _ pay6_apply i2

/-- At any other row block the body extends the runs the point before left, which are runs of the same columns. -/
theorem inv_step (c : Dev nD) (t t' : Fin cfg0.N) (ht : t.val = t'.val + 1) (h0 : ¬t.val % 8 = 0) (ih : Inv m c t') :
    Inv m c t := by
  obtain ⟨i1, i2', i3, i4⟩ := ih
  have hup : up2 t' = up2 t := up2_congr t t' (by omega)
  have e8 : 64 * (t'.val % 8) + 64 = 64 * (t.val % 8) := by omega
  have hprev := outsAt0_congr m c (show t.val - 1 = t'.val by omega) (Nat.lt_of_le_of_lt (Nat.sub_le _ _) t.isLt) t'.isLt
  refine ⟨fun i2 => ?_, fun i2 => ?_, fun i2 => ?_, fun i2 => ?_⟩
  · rw [accB_2 m c t h0, pay9_eq, hprev]
    refine minStep (pred m c) (pblk m c t) t (pblk_apply m c t) _ i2 ?_
    have h := i1 i2
    rw [hup, e8] at h
    exact h
  · rw [accB_3 m c t h0, pay10_eq, hprev]
    refine maxStep (pred m c) (pblk m c t) t (pblk_apply m c t) _ i2 ?_
    have h := i2' i2
    rw [hup, e8] at h
    exact h
  · rw [accB_4 m c t h0, pay8_eq, hprev]
    refine minStep (tgt m c) (tblk m c t) t (tblk_apply m c t) _ i2 ?_
    have h := i3 i2
    rw [hup, e8] at h
    exact h
  · rw [accB_5 m c t h0, pay8_eq, hprev]
    refine maxStep (tgt m c) (tblk m c t) t (tblk_apply m c t) _ i2 ?_
    have h := i4 i2
    rw [hup, e8] at h
    exact h

/-- The invariant at every point, by induction on the point. -/
theorem inv (c : Dev nD) : ∀ (n : ℕ) (hn : n < cfg0.N), Inv m c ⟨n, hn⟩
  | 0, hn => inv_seed m c ⟨0, hn⟩ rfl
  | n + 1, hn => by
    by_cases h0 : (n + 1) % 8 = 0
    · exact inv_seed m c ⟨n + 1, hn⟩ h0
    · exact inv_step m c ⟨n + 1, hn⟩ ⟨n, Nat.lt_of_succ_lt hn⟩ rfl h0 (inv c n (Nat.lt_of_succ_lt hn))

/-! ## At the last row block the seeds are absorbed -/

theorem last_2 (c : Dev nD) (t : Fin cfg0.N) (h7 : t.val % 8 = 7) (i2 : S8x512.Idx) :
    ((outsAt0 m c t.val t.isLt).1 i2 : EReal) = hmin (F := Ideal) (pred m c) (up2 t i2) := by
  obtain ⟨n, hn⟩ := t
  have h := (inv m c n hn).1 i2
  have e : 64 * ((⟨n, hn⟩ : Fin cfg0.N).val % 8) + 64 = 512 := by have h7' : n % 8 = 7 := h7; show 64 * (n % 8) + 64 = 512; omega
  rw [e] at h
  rw [hmin_apply, ← col_def]
  exact MinTo.eq_fold h (by decide) (col_le _ _)
theorem last_3 (c : Dev nD) (t : Fin cfg0.N) (h7 : t.val % 8 = 7) (i2 : S8x512.Idx) :
    ((outsAt0 m c t.val t.isLt).2.1 i2 : EReal) = hmax (F := Ideal) (pred m c) (up2 t i2) := by
  obtain ⟨n, hn⟩ := t
  have h := (inv m c n hn).2.1 i2
  have e : 64 * ((⟨n, hn⟩ : Fin cfg0.N).val % 8) + 64 = 512 := by have h7' : n % 8 = 7 := h7; show 64 * (n % 8) + 64 = 512; omega
  rw [e] at h
  rw [hmax_apply, ← col_def]
  exact MaxTo.eq_fold h (by decide) (le_col _ _)
theorem last_4 (c : Dev nD) (t : Fin cfg0.N) (h7 : t.val % 8 = 7) (i2 : S8x512.Idx) :
    ((outsAt0 m c t.val t.isLt).2.2.1 i2 : EReal) = hmin (F := Ideal) (tgt m c) (up2 t i2) := by
  obtain ⟨n, hn⟩ := t
  have h := (inv m c n hn).2.2.1 i2
  have e : 64 * ((⟨n, hn⟩ : Fin cfg0.N).val % 8) + 64 = 512 := by have h7' : n % 8 = 7 := h7; show 64 * (n % 8) + 64 = 512; omega
  rw [e] at h
  rw [hmin_apply, ← col_def]
  exact MinTo.eq_fold h (by decide) (col_le _ _)
theorem last_5 (c : Dev nD) (t : Fin cfg0.N) (h7 : t.val % 8 = 7) (i2 : S8x512.Idx) :
    ((outsAt0 m c t.val t.isLt).2.2.2 i2 : EReal) = hmax (F := Ideal) (tgt m c) (up2 t i2) := by
  obtain ⟨n, hn⟩ := t
  have h := (inv m c n hn).2.2.2 i2
  have e : 64 * ((⟨n, hn⟩ : Fin cfg0.N).val % 8) + 64 = 512 := by have h7' : n % 8 = 7 := h7; show 64 * (n % 8) + 64 = 512; omega
  rw [e] at h
  rw [hmax_apply, ← col_def]
  exact MaxTo.eq_fold h (by decide) (le_col _ _)

/-! ## The arrays after the run -/

theorem idx_out : ∀ t : Fin cfg0.N,
    (win0_2.index t (0 : Fin 2) = t.val / 8 ∧ win0_2.index t (1 : Fin 2) = 0)
    ∧ (win0_3.index t (0 : Fin 2) = t.val / 8 ∧ win0_3.index t (1 : Fin 2) = 0)
    ∧ (win0_4.index t (0 : Fin 2) = t.val / 8 ∧ win0_4.index t (1 : Fin 2) = 0)
    ∧ (win0_5.index t (0 : Fin 2) = t.val / 8 ∧ win0_5.index t (1 : Fin 2) = 0) :=
  (by decide +kernel : ∀ t : Fin grid0.N, _)

/-! ### Output window 2 -/

/-- For ANY array `G`: a block buffer that holds `G` at the block's array coordinates is block `t` of `G` (the block of an
    output window at `t` starts at row `8 (t / 8)`, column 0). Stated for any array `G`; the
    reference's arrays are substituted below. -/
theorem blk_read_2 (t : Fin cfg0.N) (G : FVec Ideal S32x512 .f32) (A : Vec Ideal S8x512 .f32)
    (hA : ∀ j : S8x512.Idx, (A j : EReal) = G (up2 t j)) :
    (cfg0.win 2).cut (grid0.coords t) A = ((cfg0.win 2).blk t).view.read (Elt Ideal) G := by
  obtain ⟨e0, e1⟩ := (idx_out t).1
  funext j
  show (A j : EReal) = G (((cfg0.win 2).blk t).view.emb j)
  rw [hA j]
  refine congrArg G ?_
  funext a; apply Fin.ext
  match a with
  | ⟨0, _⟩ => show 8 * (t.val / 8) + (j 0).val = win0_2.index t 0 * 8 + 1 * (j 0).val; rw [e0]; omega
  | ⟨1, _⟩ => show (j 1).val = win0_2.index t 1 * 512 + 1 * (j 1).val; rw [e1]; omega

/-- What a writing-back point writes back: block `t` of the reference's array. -/
theorem flushed_2 (c : Dev nD) (t : Fin cfg0.N) (hf : (cfg0.win 2).flush t = true) :
    (dats m 0 c).flushed 2 t = ((cfg0.win 2).blk t).view.read (Elt Ideal) (hmin (F := Ideal) (pred m c)) := by
  have h7 : t.val % 8 = 7 := (flush0_2 t).mp hf
  show (cfg0.win 2).cut (grid0.coords t) ((dats m 0 c).after 2 t) = _
  rw [after0_2]
  exact blk_read_2 t (hmin (F := Ideal) (pred m c)) ((outsAt0 m c t.val t.isLt).1) (fun j => last_2 m c t h7 j)

theorem mem_blk_2 (t : Fin cfg0.N) (i : S32x512.Idx) :
    i ∈ ((cfg0.win 2).blk t).view.set ↔ ∀ a : Fin 2, win0_2.index t a * S8x512.size a ≤ (i a).val ∧ (i a).val < win0_2.index t a * S8x512.size a + S8x512.size a := by
  show i ∈ ((View.whole main_v0_0).slice (win0_2.rect t)).set ↔ _
  rw [View.set_slice_whole, Rect.mem_set_unit]
  exact Iff.rfl

/-- Every entry of the array is in the block of its image block's last point. -/
theorem cover_2 (i : S32x512.Idx) :
    ∃ t : Fin cfg0.N, (cfg0.win 2).flush t = true ∧ i ∈ ((cfg0.win 2).blk t).view.set := by
  have hi0 : (i 0).val < 32 := (i 0).isLt
  have hi1 : (i 1).val < 512 := (i 1).isLt
  obtain ⟨t, ht⟩ : ∃ t : Fin cfg0.N, t.val = 8 * ((i 0).val / 8) + 7 :=
    ⟨⟨8 * ((i 0).val / 8) + 7, by rw [show cfg0.N = 32 from N_0]; omega⟩, rfl⟩
  obtain ⟨e0, e1⟩ := (idx_out t).1
  refine ⟨t, (flush0_2 t).mpr (by rw [ht]; omega), ?_⟩
  rw [mem_blk_2]
  intro a
  match a with
  | ⟨0, _⟩ => show win0_2.index t 0 * 8 ≤ (i 0).val ∧ (i 0).val < win0_2.index t 0 * 8 + 8; rw [e0, ht]; omega
  | ⟨1, _⟩ => show win0_2.index t 1 * 512 ≤ (i 1).val ∧ (i 1).val < win0_2.index t 1 * 512 + 512; rw [e1]; omega

/-- The array of window 2 after the run. -/
theorem final_2 (c : Dev nD) : (dats m 0 c).arrAt 2 cfg0.N = hmin (F := Ideal) (pred m c) :=
  (dats m 0 c).arrAt_eq_of_cover 2 (hmin (F := Ideal) (pred m c)) (flushed_2 m c) (fun i => cover_2 i)

/-! ### Output window 3 -/

/-- For ANY array `G`: a block buffer that holds `G` at the block's array coordinates is block `t` of `G` (the block of an
    output window at `t` starts at row `8 (t / 8)`, column 0). Stated for any array `G`; the
    reference's arrays are substituted below. -/
theorem blk_read_3 (t : Fin cfg0.N) (G : FVec Ideal S32x512 .f32) (A : Vec Ideal S8x512 .f32)
    (hA : ∀ j : S8x512.Idx, (A j : EReal) = G (up2 t j)) :
    (cfg0.win 3).cut (grid0.coords t) A = ((cfg0.win 3).blk t).view.read (Elt Ideal) G := by
  obtain ⟨e0, e1⟩ := (idx_out t).2.1
  funext j
  show (A j : EReal) = G (((cfg0.win 3).blk t).view.emb j)
  rw [hA j]
  refine congrArg G ?_
  funext a; apply Fin.ext
  match a with
  | ⟨0, _⟩ => show 8 * (t.val / 8) + (j 0).val = win0_3.index t 0 * 8 + 1 * (j 0).val; rw [e0]; omega
  | ⟨1, _⟩ => show (j 1).val = win0_3.index t 1 * 512 + 1 * (j 1).val; rw [e1]; omega

/-- What a writing-back point writes back: block `t` of the reference's array. -/
theorem flushed_3 (c : Dev nD) (t : Fin cfg0.N) (hf : (cfg0.win 3).flush t = true) :
    (dats m 0 c).flushed 3 t = ((cfg0.win 3).blk t).view.read (Elt Ideal) (hmax (F := Ideal) (pred m c)) := by
  have h7 : t.val % 8 = 7 := (flush0_3 t).mp hf
  show (cfg0.win 3).cut (grid0.coords t) ((dats m 0 c).after 3 t) = _
  rw [after0_3]
  exact blk_read_3 t (hmax (F := Ideal) (pred m c)) ((outsAt0 m c t.val t.isLt).2.1) (fun j => last_3 m c t h7 j)

theorem mem_blk_3 (t : Fin cfg0.N) (i : S32x512.Idx) :
    i ∈ ((cfg0.win 3).blk t).view.set ↔ ∀ a : Fin 2, win0_3.index t a * S8x512.size a ≤ (i a).val ∧ (i a).val < win0_3.index t a * S8x512.size a + S8x512.size a := by
  show i ∈ ((View.whole main_v0_1).slice (win0_3.rect t)).set ↔ _
  rw [View.set_slice_whole, Rect.mem_set_unit]
  exact Iff.rfl

/-- Every entry of the array is in the block of its image block's last point. -/
theorem cover_3 (i : S32x512.Idx) :
    ∃ t : Fin cfg0.N, (cfg0.win 3).flush t = true ∧ i ∈ ((cfg0.win 3).blk t).view.set := by
  have hi0 : (i 0).val < 32 := (i 0).isLt
  have hi1 : (i 1).val < 512 := (i 1).isLt
  obtain ⟨t, ht⟩ : ∃ t : Fin cfg0.N, t.val = 8 * ((i 0).val / 8) + 7 :=
    ⟨⟨8 * ((i 0).val / 8) + 7, by rw [show cfg0.N = 32 from N_0]; omega⟩, rfl⟩
  obtain ⟨e0, e1⟩ := (idx_out t).2.1
  refine ⟨t, (flush0_3 t).mpr (by rw [ht]; omega), ?_⟩
  rw [mem_blk_3]
  intro a
  match a with
  | ⟨0, _⟩ => show win0_3.index t 0 * 8 ≤ (i 0).val ∧ (i 0).val < win0_3.index t 0 * 8 + 8; rw [e0, ht]; omega
  | ⟨1, _⟩ => show win0_3.index t 1 * 512 ≤ (i 1).val ∧ (i 1).val < win0_3.index t 1 * 512 + 512; rw [e1]; omega

/-- The array of window 3 after the run. -/
theorem final_3 (c : Dev nD) : (dats m 0 c).arrAt 3 cfg0.N = hmax (F := Ideal) (pred m c) :=
  (dats m 0 c).arrAt_eq_of_cover 3 (hmax (F := Ideal) (pred m c)) (flushed_3 m c) (fun i => cover_3 i)

/-! ### Output window 4 -/

/-- For ANY array `G`: a block buffer that holds `G` at the block's array coordinates is block `t` of `G` (the block of an
    output window at `t` starts at row `8 (t / 8)`, column 0). Stated for any array `G`; the
    reference's arrays are substituted below. -/
theorem blk_read_4 (t : Fin cfg0.N) (G : FVec Ideal S32x512 .f32) (A : Vec Ideal S8x512 .f32)
    (hA : ∀ j : S8x512.Idx, (A j : EReal) = G (up2 t j)) :
    (cfg0.win 4).cut (grid0.coords t) A = ((cfg0.win 4).blk t).view.read (Elt Ideal) G := by
  obtain ⟨e0, e1⟩ := (idx_out t).2.2.1
  funext j
  show (A j : EReal) = G (((cfg0.win 4).blk t).view.emb j)
  rw [hA j]
  refine congrArg G ?_
  funext a; apply Fin.ext
  match a with
  | ⟨0, _⟩ => show 8 * (t.val / 8) + (j 0).val = win0_4.index t 0 * 8 + 1 * (j 0).val; rw [e0]; omega
  | ⟨1, _⟩ => show (j 1).val = win0_4.index t 1 * 512 + 1 * (j 1).val; rw [e1]; omega

/-- What a writing-back point writes back: block `t` of the reference's array. -/
theorem flushed_4 (c : Dev nD) (t : Fin cfg0.N) (hf : (cfg0.win 4).flush t = true) :
    (dats m 0 c).flushed 4 t = ((cfg0.win 4).blk t).view.read (Elt Ideal) (hmin (F := Ideal) (tgt m c)) := by
  have h7 : t.val % 8 = 7 := (flush0_4 t).mp hf
  show (cfg0.win 4).cut (grid0.coords t) ((dats m 0 c).after 4 t) = _
  rw [after0_4]
  exact blk_read_4 t (hmin (F := Ideal) (tgt m c)) ((outsAt0 m c t.val t.isLt).2.2.1) (fun j => last_4 m c t h7 j)

theorem mem_blk_4 (t : Fin cfg0.N) (i : S32x512.Idx) :
    i ∈ ((cfg0.win 4).blk t).view.set ↔ ∀ a : Fin 2, win0_4.index t a * S8x512.size a ≤ (i a).val ∧ (i a).val < win0_4.index t a * S8x512.size a + S8x512.size a := by
  show i ∈ ((View.whole main_v0_2).slice (win0_4.rect t)).set ↔ _
  rw [View.set_slice_whole, Rect.mem_set_unit]
  exact Iff.rfl

/-- Every entry of the array is in the block of its image block's last point. -/
theorem cover_4 (i : S32x512.Idx) :
    ∃ t : Fin cfg0.N, (cfg0.win 4).flush t = true ∧ i ∈ ((cfg0.win 4).blk t).view.set := by
  have hi0 : (i 0).val < 32 := (i 0).isLt
  have hi1 : (i 1).val < 512 := (i 1).isLt
  obtain ⟨t, ht⟩ : ∃ t : Fin cfg0.N, t.val = 8 * ((i 0).val / 8) + 7 :=
    ⟨⟨8 * ((i 0).val / 8) + 7, by rw [show cfg0.N = 32 from N_0]; omega⟩, rfl⟩
  obtain ⟨e0, e1⟩ := (idx_out t).2.2.1
  refine ⟨t, (flush0_4 t).mpr (by rw [ht]; omega), ?_⟩
  rw [mem_blk_4]
  intro a
  match a with
  | ⟨0, _⟩ => show win0_4.index t 0 * 8 ≤ (i 0).val ∧ (i 0).val < win0_4.index t 0 * 8 + 8; rw [e0, ht]; omega
  | ⟨1, _⟩ => show win0_4.index t 1 * 512 ≤ (i 1).val ∧ (i 1).val < win0_4.index t 1 * 512 + 512; rw [e1]; omega

/-- The array of window 4 after the run. -/
theorem final_4 (c : Dev nD) : (dats m 0 c).arrAt 4 cfg0.N = hmin (F := Ideal) (tgt m c) :=
  (dats m 0 c).arrAt_eq_of_cover 4 (hmin (F := Ideal) (tgt m c)) (flushed_4 m c) (fun i => cover_4 i)

/-! ### Output window 5 -/

/-- For ANY array `G`: a block buffer that holds `G` at the block's array coordinates is block `t` of `G` (the block of an
    output window at `t` starts at row `8 (t / 8)`, column 0). Stated for any array `G`; the
    reference's arrays are substituted below. -/
theorem blk_read_5 (t : Fin cfg0.N) (G : FVec Ideal S32x512 .f32) (A : Vec Ideal S8x512 .f32)
    (hA : ∀ j : S8x512.Idx, (A j : EReal) = G (up2 t j)) :
    (cfg0.win 5).cut (grid0.coords t) A = ((cfg0.win 5).blk t).view.read (Elt Ideal) G := by
  obtain ⟨e0, e1⟩ := (idx_out t).2.2.2
  funext j
  show (A j : EReal) = G (((cfg0.win 5).blk t).view.emb j)
  rw [hA j]
  refine congrArg G ?_
  funext a; apply Fin.ext
  match a with
  | ⟨0, _⟩ => show 8 * (t.val / 8) + (j 0).val = win0_5.index t 0 * 8 + 1 * (j 0).val; rw [e0]; omega
  | ⟨1, _⟩ => show (j 1).val = win0_5.index t 1 * 512 + 1 * (j 1).val; rw [e1]; omega

/-- What a writing-back point writes back: block `t` of the reference's array. -/
theorem flushed_5 (c : Dev nD) (t : Fin cfg0.N) (hf : (cfg0.win 5).flush t = true) :
    (dats m 0 c).flushed 5 t = ((cfg0.win 5).blk t).view.read (Elt Ideal) (hmax (F := Ideal) (tgt m c)) := by
  have h7 : t.val % 8 = 7 := (flush0_5 t).mp hf
  show (cfg0.win 5).cut (grid0.coords t) ((dats m 0 c).after 5 t) = _
  rw [after0_5]
  exact blk_read_5 t (hmax (F := Ideal) (tgt m c)) ((outsAt0 m c t.val t.isLt).2.2.2) (fun j => last_5 m c t h7 j)

theorem mem_blk_5 (t : Fin cfg0.N) (i : S32x512.Idx) :
    i ∈ ((cfg0.win 5).blk t).view.set ↔ ∀ a : Fin 2, win0_5.index t a * S8x512.size a ≤ (i a).val ∧ (i a).val < win0_5.index t a * S8x512.size a + S8x512.size a := by
  show i ∈ ((View.whole main_v0_3).slice (win0_5.rect t)).set ↔ _
  rw [View.set_slice_whole, Rect.mem_set_unit]
  exact Iff.rfl

/-- Every entry of the array is in the block of its image block's last point. -/
theorem cover_5 (i : S32x512.Idx) :
    ∃ t : Fin cfg0.N, (cfg0.win 5).flush t = true ∧ i ∈ ((cfg0.win 5).blk t).view.set := by
  have hi0 : (i 0).val < 32 := (i 0).isLt
  have hi1 : (i 1).val < 512 := (i 1).isLt
  obtain ⟨t, ht⟩ : ∃ t : Fin cfg0.N, t.val = 8 * ((i 0).val / 8) + 7 :=
    ⟨⟨8 * ((i 0).val / 8) + 7, by rw [show cfg0.N = 32 from N_0]; omega⟩, rfl⟩
  obtain ⟨e0, e1⟩ := (idx_out t).2.2.2
  refine ⟨t, (flush0_5 t).mpr (by rw [ht]; omega), ?_⟩
  rw [mem_blk_5]
  intro a
  match a with
  | ⟨0, _⟩ => show win0_5.index t 0 * 8 ≤ (i 0).val ∧ (i 0).val < win0_5.index t 0 * 8 + 8; rw [e0, ht]; omega
  | ⟨1, _⟩ => show win0_5.index t 1 * 512 ≤ (i 1).val ∧ (i 1).val < win0_5.index t 1 * 512 + 512; rw [e1]; omega

/-- The array of window 5 after the run. -/
theorem final_5 (c : Dev nD) : (dats m 0 c).arrAt 5 cfg0.N = hmax (F := Ideal) (tgt m c) :=
  (dats m 0 c).arrAt_eq_of_cover 5 (hmax (F := Ideal) (tgt m c)) (flushed_5 m c) (fun i => cover_5 i)

/-! ## The host operations after the region, and the run -/

/-- For ANY four arrays the region leaves in its result buffers: the host operations after the region compute the
    reference's closing term of them (the same subtract, square, mean, add, on the same literals). Stated for any four arrays;
    the region's are substituted below. -/
theorem tail_of (c : Dev nD) (A0 A1 A2 A3 : FVec Ideal S32x512 .f32)
    (h0 : (dats m 0 c).arrAt 2 cfg0.N = A0) (h1 : (dats m 0 c).arrAt 3 cfg0.N = A1)
    (h2 : (dats m 0 c).arrAt 4 cfg0.N = A2) (h3 : (dats m 0 c).arrAt 5 cfg0.N = A3) :
    Pipeline.afterTail₀ cfgs (dats m) 0 (V0 m) [hostOps1] c main_v9 = tail (F := Ideal) A0 A1 A2 A3 := by
  unfold Pipeline.afterTail₀
  show StableHlo.after hostOps1 _ (Proc.devRef .tc main_v9) = _
  after_results
  have w0 : Pipeline.withArrays (cfgs 0).spec c (V0 m c) (fun w => (dats m 0 c).arrAt w (cfgs 0).N) (Proc.devRef .tc main_v0_0)
      = (dats m 0 c).arrAt 2 cfg0.N := Pipeline.withArrays_arr spec0 launch0.win.arr_inj c _ _ 2
  have w1 : Pipeline.withArrays (cfgs 0).spec c (V0 m c) (fun w => (dats m 0 c).arrAt w (cfgs 0).N) (Proc.devRef .tc main_v0_1)
      = (dats m 0 c).arrAt 3 cfg0.N := Pipeline.withArrays_arr spec0 launch0.win.arr_inj c _ _ 3
  have w2 : Pipeline.withArrays (cfgs 0).spec c (V0 m c) (fun w => (dats m 0 c).arrAt w (cfgs 0).N) (Proc.devRef .tc main_v0_2)
      = (dats m 0 c).arrAt 4 cfg0.N := Pipeline.withArrays_arr spec0 launch0.win.arr_inj c _ _ 4
  have w3 : Pipeline.withArrays (cfgs 0).spec c (V0 m c) (fun w => (dats m 0 c).arrAt w (cfgs 0).N) (Proc.devRef .tc main_v0_3)
      = (dats m 0 c).arrAt 5 cfg0.N := Pipeline.withArrays_arr spec0 launch0.win.arr_inj c _ _ 5
  rw [w0, w1, w2, w3, h0, h1, h2, h3]
  unfold tail
  rfl

/-- The host tail, applied to the four arrays the region leaves, is the reference's closing term of them. -/
theorem tail_eq (c : Dev nD) :
    Pipeline.afterTail₀ cfgs (dats m) 0 (V0 m) [hostOps1] c main_v9
      = tail (F := Ideal) (hmin (F := Ideal) (pred m c)) (hmax (F := Ideal) (pred m c)) (hmin (F := Ideal) (tgt m c)) (hmax (F := Ideal) (tgt m c)) :=
  tail_of m c _ _ _ _ (final_2 m c) (final_3 m c) (final_4 m c) (final_5 m c)

/-- The region finds the argument arrays as launched (no host operation precedes it). -/
theorem pred_eq (c : Dev nD) : pred m c = m ((c : Thread nD τ).loc main_arg0) := V_main_arg0 m c
theorem tgt_eq (c : Dev nD) : tgt m c = m ((c : Thread nD τ).loc main_arg1) := V_main_arg1 m c

/-- THE KERNEL'S RUN, READ: every weakly fair execution terminates with the result at the reference's closing term of the
    darkest and brightest rows of the two argument arrays, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v9)
          = tail (F := Ideal) (hmin (F := Ideal) (m ((c : Thread nD τ).loc main_arg0))) (hmax (F := Ideal) (m ((c : Thread nD τ).loc main_arg0)))
              (hmin (F := Ideal) (m ((c : Thread nD τ).loc main_arg1))) (hmax (F := Ideal) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v9 (by decide)).trans ((tail_eq m c).trans (by rw [pred_eq, tgt_eq])),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Fold

end
-- ==== Proof.RefValue.lean ====
/-
  The reference's result, named: the composed term its run ends at is the closing term `tail` of the darkest and brightest
  rows of its two arguments — the same host operations, read off the program in the same order (`Spec.vch`, `Spec.hmin`,
  `Spec.hmax`, `Spec.tail` are that term's own sub-terms, so the two sides are one expression).
-/
import proofs.«138752_j71442486001672_1_alg».proof.Proof.RefRun
import proofs.«138752_j71442486001672_1_alg».proof.Proof.RefSpec

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.Spec

theorem res_eq {F : FTy → Type} [FloatOps F] (m : (ℓ : Loc nD τ sig) → Buf (Elt F) ℓ) (c : Dev nD) :
    Cert.ReferenceIdeal.RunP.res_main_v18 m c
      = tail (hmin (m ((c.tc : Thread nD τ).loc main_arg0))) (hmax (m ((c.tc : Thread nD τ).loc main_arg0)))
          (hmin (m ((c.tc : Thread nD τ).loc main_arg1))) (hmax (m ((c.tc : Thread nD τ).loc main_arg1))) := by
  unfold Cert.ReferenceIdeal.RunP.res_main_v18 tail hmin hmax vch
  rfl

end Cert.ReferenceIdeal.RefValue

end
-- ==== Proof.lean ====
/-
  The kernel and its reference compute one number: for a predicted and a target batch of images `[32, 3, 512, 512]`,

      mean ((dark P - dark T)²) + mean ((bright P - bright T)²),

  where for an image batch `x` the VALUE CHANNEL is `v x (b, h, w) = max over the channels c of ⌊min(255, max(0, x (b, c, h, w)))⌋`,
  `dark x (b, w) = min over the 512 rows h of v x (b, h, w)` and `bright x (b, w) = max over h of v x (b, h, w)`, and the
  means run over all 32 · 512 entries.

  The reference takes the two row reductions whole, from `+inf` and `-inf`. The kernel walks a grid of 4 image blocks × 8
  row blocks; at each point it forms the value channel of its 8 × 3 × 64 × 512 block, reduces its 64 rows, and folds the
  result into four output blocks that stay resident across the 8 row blocks of an image block — re-seeded at the first
  one with 255 (the minima) and 0 (the maxima), written back after the last one; the host then takes the two means and
  adds them, with the reference's own operations.

  Over the extended reals the two agree, and nothing is asked of the inputs:
    * a minimum (maximum) over 512 rows taken 64 rows at a time is the same minimum (maximum): `min` and `max` are the
      meet and join of a lattice, and a running value is determined by its lower (upper) bounds (Proof/SeededFold.lean);
    * the seeds are absorbed: a clipped entry lies in `[0, 255]` whatever the input (an infinity is clipped too), rounding
      down keeps it there (`0` and `255` are integers, `⌊y⌋ ≤ y`), so does the maximum of three such values; hence
      `min(255, ·)` and `max(0, ·)` change nothing once a row is in (Proof/RefSpec.lean `vch_mem`, SeededFold `eq_fold`).
  Proof/KernelPieces.lean reads what each control case of the body leaves in the buffers; Proof/KernelBlocks.lean places a
  block in its array and takes one grid step; Proof/KernelFold.lean runs the induction over the grid, reads the four
  result arrays and the host tail. The reference's run is Proof/RefRun.lean; Proof/RefValue.lean names its result.
  The three frame claims are the runs with the value dropped; the idealization rewrote nothing (`preserves` is `True`).
-/
import proofs.«138752_j71442486001672_1_alg».proof.Defs
import proofs.«138752_j71442486001672_1_alg».proof.Proof.Gen.Kernel
import proofs.«138752_j71442486001672_1_alg».proof.Proof.Gen.Kernel.Skeleton
import proofs.«138752_j71442486001672_1_alg».proof.Proof.Gen.Kernel.Launch
import proofs.«138752_j71442486001672_1_alg».proof.Proof.Gen.Kernel.Points
import proofs.«138752_j71442486001672_1_alg».proof.Proof.Gen.Kernel.Frame
import proofs.«138752_j71442486001672_1_alg».proof.Proof.Gen.KernelIdeal
import proofs.«138752_j71442486001672_1_alg».proof.Proof.Gen.KernelIdeal.Skeleton
import proofs.«138752_j71442486001672_1_alg».proof.Proof.Gen.KernelIdeal.Launch
import proofs.«138752_j71442486001672_1_alg».proof.Proof.Gen.KernelIdeal.Points
import proofs.«138752_j71442486001672_1_alg».proof.Proof.Gen.KernelIdeal.Frame
import proofs.«138752_j71442486001672_1_alg».proof.Proof.Gen.ReferenceIdeal
import proofs.«138752_j71442486001672_1_alg».proof.Proof.Gen.Pre_finite_inputs
import proofs.«138752_j71442486001672_1_alg».proof.Proof.KernelFold
import proofs.«138752_j71442486001672_1_alg».proof.Proof.RefValue
import Idealize.ShloMosaic.Adequacy
import Idealize.ShloMosaic.Init

noncomputable section

namespace Cert.Proof

open Idealize.ShloMosaic Idealize.SL.Sem

/-- The word-level kernel terminates, faults nowhere and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- Both runs end at the closing term `tail` of the darkest and brightest rows of arguments that agree. -/
theorem algebraic : Cert.algebraic_KernelIdeal_ReferenceIdeal := by
  intro m ρ m' ρ' _ hagree
  refine ⟨_, Cert.KernelIdeal.Fold.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.RefValue.res_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
